-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v32 : IVec S600000 1) (main_v34 : IVec S600000 32) : IVec S_ 1 :=
  let main_c_11 : IVec S_ 32 := constantI S_ 32 50000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg1 : IVec S2x600000 32) (main_arg5 : FVec F S128x2 .f32) (main_arg6 : FVec F S2 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128x2 .f32 := Host.absf main_arg5
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : IVec S1x600000 32 := (extractStridedSlice S1x600000 ![0, 0] · slices_S2x600000_S1x600000_0_0) main_arg1
  let main_v30 : IVec S600000 32 := shapeCast S600000 main_v29 shapeCasts_S1x600000_S600000
  let main_c_10 : IVec S_ 32 := constantI S_ 32 4294917296#32
  let main_v31 : IVec S600000 32 := broadcastInDim S600000 ![] bcast_S_S600000 main_c_10
  let main_v32 : IVec S600000 1 := cmpi .sge main_v30 main_v31
  let main_v33 : IVec S1x600000 32 := (extractStridedSlice S1x600000 ![0, 0] · slices_S2x600000_S1x600000_0_0) main_arg1
  let main_v34 : IVec S600000 32 := shapeCast S600000 main_v33 shapeCasts_S1x600000_S600000
  fn_part2 (F := F) main_v28 main_v32 main_v34

def fn {F : FTy → Type} [FloatOps F] (main_arg0 : FVec F S50000x128 .f32) (main_arg1 : IVec S2x600000 32) (main_arg2 : FVec F S6x128x128 .f32) (main_arg3 : FVec F S6x128x128 .f32) (main_arg4 : FVec F S6x128 .f32) (main_arg5 : FVec F S128x2 .f32) (main_arg6 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S6x128x128 .f32 := Host.absf main_arg2
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128x128 .f32 := Host.absf main_arg3
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_c_3 : IVec S_ 1 := constantI S_ 1 1#1
  let main_v12 : IVec S_ 1 := (fun x v => Host.reduce IntOp.andi x v reducesTo_S6x128x128_S_d0_1_2 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg1 main_arg5 main_arg6 main_v13 main_v16
-- ==== Kernel.lean ====
abbrev S50000x128 : Shape := ⟨2, ![50000, 128]⟩
abbrev S2x600000 : Shape := ⟨2, ![2, 600000]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 235
  | .vmem => 68
  | .smem => 0
  | _ => 0

abbrev hbmTy0_0 (i : Nat) : BufTy := match i % 128 with
  | 0 => ⟨S50000x128, .f32⟩
  | 1 => ⟨S2x600000, .i32⟩
  | 2 => ⟨S6x128x128, .f32⟩
  | 3 => ⟨S6x128x128, .f32⟩
  | 4 => ⟨S6x128, .f32⟩
  | 5 => ⟨S128x2, .f32⟩
  | 6 => ⟨S2, .f32⟩
  | 7 => ⟨S1x600000, .i32⟩
  | 8 => ⟨S600000, .i32⟩
  | 9 => ⟨S1x600000, .i32⟩
  | 10 => ⟨S600000, .i32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S1, .i32⟩
  | 33 => ⟨S_, .i32⟩
  | 34 => ⟨S600000x1, .i32⟩
  | 35 => ⟨S600000x1, .i1⟩
  | 36 => ⟨S1x1, .i32⟩
  | 37 => ⟨S600000x1, .i32⟩
  | 38 => ⟨S600000x1, .i1⟩
  | 39 => ⟨S600000x1, .i1⟩
  | 40 => ⟨S_, .i1⟩
  | 41 => ⟨S600000, .i1⟩
  | 42 => ⟨S600000x128, .f32⟩
  | 43 => ⟨S600000x128, .i1⟩
  | 44 => ⟨S_, .f32⟩
  | 45 => ⟨S600000x128, .f32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x128x128, .f32⟩
  | 52 => ⟨S128x128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S50000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S1, .i32⟩
  | 68 => ⟨S_, .i32⟩
  | 69 => ⟨S600000x1, .i32⟩
  | 70 => ⟨S600000x1, .i1⟩
  | 71 => ⟨S1x1, .i32⟩
  | 72 => ⟨S600000x1, .i32⟩
  | 73 => ⟨S600000x1, .i1⟩
  | 74 => ⟨S600000x1, .i1⟩
  | 75 => ⟨S_, .i1⟩
  | 76 => ⟨S600000, .i1⟩
  | 77 => ⟨S600000x128, .f32⟩
  | 78 => ⟨S600000x128, .i1⟩
  | 79 => ⟨S_, .f32⟩
  | 80 => ⟨S600000x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S1x128x128, .f32⟩
  | 87 => ⟨S128x128, .f32⟩
  | 88 => ⟨S1x128x128, .f32⟩
  | 89 => ⟨S128x128, .f32⟩
  | 90 => ⟨S1x128, .f32⟩
  | 91 => ⟨S128, .f32⟩
  | 92 => ⟨S1x128, .f32⟩
  | 93 => ⟨S50000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S1, .i32⟩
  | 103 => ⟨S_, .i32⟩
  | 104 => ⟨S600000x1, .i32⟩
  | 105 => ⟨S600000x1, .i1⟩
  | 106 => ⟨S1x1, .i32⟩
  | 107 => ⟨S600000x1, .i32⟩
  | 108 => ⟨S600000x1, .i1⟩
  | 109 => ⟨S600000x1, .i1⟩
  | 110 => ⟨S_, .i1⟩
  | 111 => ⟨S600000, .i1⟩
  | 112 => ⟨S600000x128, .f32⟩
  | 113 => ⟨S600000x128, .i1⟩
  | 114 => ⟨S_, .f32⟩
  | 115 => ⟨S600000x128, .f32⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S1x128x128, .f32⟩
  | 122 => ⟨S128x128, .f32⟩
  | 123 => ⟨S1x128x128, .f32⟩
  | 124 => ⟨S128x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S1, .i32⟩
  | 10 => ⟨S_, .i32⟩
  | 11 => ⟨S600000x1, .i32⟩
  | 12 => ⟨S600000x1, .i1⟩
  | 13 => ⟨S1x1, .i32⟩
  | 14 => ⟨S600000x1, .i32⟩
  | 15 => ⟨S600000x1, .i1⟩
  | 16 => ⟨S600000x1, .i1⟩
  | 17 => ⟨S_, .i1⟩
  | 18 => ⟨S600000, .i1⟩
  | 19 => ⟨S600000x128, .f32⟩
  | 20 => ⟨S600000x128, .i1⟩
  | 21 => ⟨S_, .f32⟩
  | 22 => ⟨S600000x128, .f32⟩
  | 23 => ⟨S600000x128, .f32⟩
  | 24 => ⟨S_, .f32⟩
  | 25 => ⟨S50000x128, .f32⟩
  | 26 => ⟨S600000x1, .i32⟩
  | 27 => ⟨S50000x128, .f32⟩
  | 28 => ⟨S1x128x128, .f32⟩
  | 29 => ⟨S128x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S50000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S1, .i32⟩
  | 45 => ⟨S_, .i32⟩
  | 46 => ⟨S600000x1, .i32⟩
  | 47 => ⟨S600000x1, .i1⟩
  | 48 => ⟨S1x1, .i32⟩
  | 49 => ⟨S600000x1, .i32⟩
  | 50 => ⟨S600000x1, .i1⟩
  | 51 => ⟨S600000x1, .i1⟩
  | 52 => ⟨S_, .i1⟩
  | 53 => ⟨S600000, .i1⟩
  | 54 => ⟨S600000x128, .f32⟩
  | 55 => ⟨S600000x128, .i1⟩
  | 56 => ⟨S_, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S1x128x128, .f32⟩
  | 64 => ⟨S128x128, .f32⟩
  | 65 => ⟨S1x128x128, .f32⟩
  | 66 => ⟨S128x128, .f32⟩
  | 67 => ⟨S1x128, .f32⟩
  | 68 => ⟨S128, .f32⟩
  | 69 => ⟨S1x128, .f32⟩
  | 70 => ⟨S50000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S1, .i32⟩
  | 80 => ⟨S_, .i32⟩
  | 81 => ⟨S600000x1, .i32⟩
  | 82 => ⟨S600000x1, .i1⟩
  | 83 => ⟨S1x1, .i32⟩
  | 84 => ⟨S600000x1, .i32⟩
  | 85 => ⟨S600000x1, .i1⟩
  | 86 => ⟨S600000x1, .i1⟩
  | 87 => ⟨S_, .i1⟩
  | 88 => ⟨S600000, .i1⟩
  | 89 => ⟨S600000x128, .f32⟩
  | 90 => ⟨S600000x128, .i1⟩
  | 91 => ⟨S_, .f32⟩
  | 92 => ⟨S600000x128, .f32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S1x128x128, .f32⟩
  | 99 => ⟨S128x128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S1x2, .f32⟩
  | 106 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x1, .f32⟩
  | .local _ .vmem, ⟨49, _⟩ => ⟨S5000x1, .f32⟩
  | .local _ .vmem, ⟨50, _⟩ => ⟨S128x128, .f32⟩
  | .local _ .vmem, ⟨51, _⟩ => ⟨S128x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x1, .f32⟩
  | .local _ .vmem, ⟨60, _⟩ => ⟨S5000x1, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S128x2, .f32⟩
  | .local _ .vmem, ⟨65, _⟩ => ⟨S1x2, .f32⟩
  | .local _ .vmem, ⟨66, _⟩ => ⟨S5000x2, .f32⟩
  | .local _ .vmem, ⟨67, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v13 : Ref sig .tc := ⟨.hbm, 46, rfl⟩
abbrev main_cst_3 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v25 : Ref sig .tc := ⟨.hbm, 81, rfl⟩
abbrev main_cst_4 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v37 : Ref sig .tc := ⟨.hbm, 116, rfl⟩
abbrev main_cst_5 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_call3_c : Ref sig .tc := ⟨.hbm, 129, rfl⟩
abbrev main_call3_v0 : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c_1 : Ref sig .tc := ⟨.hbm, 137, rfl⟩
abbrev main_call3_c_2 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_3 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_call3_cst : Ref sig .tc := ⟨.hbm, 149, rfl⟩
abbrev main_call3_v15 : Ref sig .tc := ⟨.hbm, 150, rfl⟩
abbrev main_v49 : Ref sig .tc := ⟨.hbm, 151, rfl⟩
abbrev main_cst_6 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_v58 : Ref sig .tc := ⟨.hbm, 161, rfl⟩
abbrev main_v59 : Ref sig .tc := ⟨.hbm, 162, rfl⟩
abbrev main_v60 : Ref sig .tc := ⟨.hbm, 163, rfl⟩
abbrev main_call4_c : Ref sig .tc := ⟨.hbm, 164, rfl⟩
abbrev main_call4_v0 : Ref sig .tc := ⟨.hbm, 165, rfl⟩
abbrev main_call4_v1 : Ref sig .tc := ⟨.hbm, 166, rfl⟩
abbrev main_call4_c_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_c_1 : Ref sig .tc := ⟨.hbm, 172, rfl⟩
abbrev main_call4_c_2 : Ref sig .tc := ⟨.hbm, 173, rfl⟩
abbrev main_call4_v6 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_c_3 : Ref sig .tc := ⟨.hbm, 180, rfl⟩
abbrev main_call4_v12 : Ref sig .tc := ⟨.hbm, 181, rfl⟩
abbrev main_call4_v13 : Ref sig .tc := ⟨.hbm, 182, rfl⟩
abbrev main_call4_v14 : Ref sig .tc := ⟨.hbm, 183, rfl⟩
abbrev main_call4_cst : Ref sig .tc := ⟨.hbm, 184, rfl⟩
abbrev main_call4_v15 : Ref sig .tc := ⟨.hbm, 185, rfl⟩
abbrev main_v61 : Ref sig .tc := ⟨.hbm, 186, rfl⟩
abbrev main_cst_7 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩
abbrev main_v68 : Ref sig .tc := ⟨.hbm, 194, rfl⟩
abbrev main_v69 : Ref sig .tc := ⟨.hbm, 195, rfl⟩
abbrev main_v70 : Ref sig .tc := ⟨.hbm, 196, rfl⟩
abbrev main_v71 : Ref sig .tc := ⟨.hbm, 197, rfl⟩
abbrev main_v72 : Ref sig .tc := ⟨.hbm, 198, rfl⟩
abbrev main_call5_c : Ref sig .tc := ⟨.hbm, 199, rfl⟩
abbrev main_call5_v0 : Ref sig .tc := ⟨.hbm, 200, rfl⟩
abbrev main_call5_v1 : Ref sig .tc := ⟨.hbm, 201, rfl⟩
abbrev main_call5_c_0 : Ref sig .tc := ⟨.hbm, 202, rfl⟩
abbrev main_call5_v2 : Ref sig .tc := ⟨.hbm, 203, rfl⟩
abbrev main_call5_v3 : Ref sig .tc := ⟨.hbm, 204, rfl⟩
abbrev main_call5_v4 : Ref sig .tc := ⟨.hbm, 205, rfl⟩
abbrev main_call5_v5 : Ref sig .tc := ⟨.hbm, 206, rfl⟩
abbrev main_call5_c_1 : Ref sig .tc := ⟨.hbm, 207, rfl⟩
abbrev main_call5_c_2 : Ref sig .tc := ⟨.hbm, 208, rfl⟩
abbrev main_call5_v6 : Ref sig .tc := ⟨.hbm, 209, rfl⟩
abbrev main_call5_v7 : Ref sig .tc := ⟨.hbm, 210, rfl⟩
abbrev main_call5_v8 : Ref sig .tc := ⟨.hbm, 211, rfl⟩
abbrev main_call5_v9 : Ref sig .tc := ⟨.hbm, 212, rfl⟩
abbrev main_call5_v10 : Ref sig .tc := ⟨.hbm, 213, rfl⟩
abbrev main_call5_v11 : Ref sig .tc := ⟨.hbm, 214, rfl⟩
abbrev main_call5_c_3 : Ref sig .tc := ⟨.hbm, 215, rfl⟩
abbrev main_call5_v12 : Ref sig .tc := ⟨.hbm, 216, rfl⟩
abbrev main_call5_v13 : Ref sig .tc := ⟨.hbm, 217, rfl⟩
abbrev main_call5_v14 : Ref sig .tc := ⟨.hbm, 218, rfl⟩
abbrev main_call5_cst : Ref sig .tc := ⟨.hbm, 219, rfl⟩
abbrev main_call5_v15 : Ref sig .tc := ⟨.hbm, 220, rfl⟩
abbrev main_v73 : Ref sig .tc := ⟨.hbm, 221, rfl⟩
abbrev main_cst_8 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg8_0 : Ref sig .tc := ⟨.vmem, 66, rfl⟩
abbrev cc5_stg8_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem8_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x2 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x2 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x2 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x2.size a ≤ S128x2.size a
  hwx5_6 : ∀ i : grid5.Coords, EltTy.bits .f32 = 32 ∨ (Rect.block (s := S128x2) S128x2.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x2.size a ≤ S1x2.size a
  hwx5_7 : ∀ i : grid5.Coords, EltTy.bits .f32 = 32 ∨ (Rect.block (s := S1x2) S1x2.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x2.size a ≤ S50000x2.size a
  hwx5_8 : ∀ i : grid5.Coords, EltTy.bits .f32 = 32 ∨ (Rect.block (s := S50000x2) S5000x2.size (cc5_transform_8 i) (hinb5_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg5) S128x2.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v84) S1x2.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v85) S5000x2.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S600000x128 : Shape := ⟨2, ![600000, 128]⟩
abbrev S50000x2 : Shape := ⟨2, ![50000, 2]⟩
abbrev S1x2 : Shape := ⟨2, ![1, 2]⟩

abbrev nBuf : Space → Nat
  | .hbm => 208
  | .vmem => 0
  | .smem => 0
  | _ => 0

abbrev hbmTy0_0 (i : Nat) : BufTy := match i % 128 with
  | 0 => ⟨S50000x128, .f32⟩
  | 1 => ⟨S2x600000, .i32⟩
  | 2 => ⟨S6x128x128, .f32⟩
  | 3 => ⟨S6x128x128, .f32⟩
  | 4 => ⟨S6x128, .f32⟩
  | 5 => ⟨S128x2, .f32⟩
  | 6 => ⟨S2, .f32⟩
  | 7 => ⟨S1x600000, .i32⟩
  | 8 => ⟨S600000, .i32⟩
  | 9 => ⟨S1x600000, .i32⟩
  | 10 => ⟨S600000, .i32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S50000x1, .f32⟩
  | 24 => ⟨S1x128x128, .f32⟩
  | 25 => ⟨S128x128, .f32⟩
  | 26 => ⟨S1x128x128, .f32⟩
  | 27 => ⟨S128x128, .f32⟩
  | 28 => ⟨S1x128, .f32⟩
  | 29 => ⟨S128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S_, .f32⟩
  | 70 => ⟨S50000x128, .f32⟩
  | 71 => ⟨S600000x1, .i32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S50000x128, .f32⟩
  | 101 => ⟨S600000x1, .i32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S1x128x128, .f32⟩
  | 117 => ⟨S128x128, .f32⟩
  | 118 => ⟨S1x128, .f32⟩
  | 119 => ⟨S128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000x128, .f32⟩
  | 1 => ⟨S_, .f32⟩
  | 2 => ⟨S50000x128, .f32⟩
  | 3 => ⟨S600000x1, .i32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S1x128x128, .f32⟩
  | 17 => ⟨S128x128, .f32⟩
  | 18 => ⟨S1x128x128, .f32⟩
  | 19 => ⟨S128x128, .f32⟩
  | 20 => ⟨S1x128, .f32⟩
  | 21 => ⟨S128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S50000x128, .f32⟩
  | 36 => ⟨S50000x128, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S1x128x128, .f32⟩
  | 49 => ⟨S128x128, .f32⟩
  | 50 => ⟨S1x128, .f32⟩
  | 51 => ⟨S128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x2, .f32⟩
  | 77 => ⟨S1x2, .f32⟩
  | 78 => ⟨S50000x2, .f32⟩
  | 79 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_cst : Ref sig .tc := ⟨.hbm, 81, rfl⟩
abbrev main_call1_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_8 : Ref sig .tc := ⟨.hbm, 90, rfl⟩
abbrev main_v69 : Ref sig .tc := ⟨.hbm, 91, rfl⟩
abbrev main_v70 : Ref sig .tc := ⟨.hbm, 92, rfl⟩
abbrev main_c_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call2_cst : Ref sig .tc := ⟨.hbm, 111, rfl⟩
abbrev main_call2_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_11 : Ref sig .tc := ⟨.hbm, 120, rfl⟩
abbrev main_v94 : Ref sig .tc := ⟨.hbm, 121, rfl⟩
abbrev main_v95 : Ref sig .tc := ⟨.hbm, 122, rfl⟩
abbrev main_c_12 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_13 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_call3_cst : Ref sig .tc := ⟨.hbm, 141, rfl⟩
abbrev main_call3_v0 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_14 : Ref sig .tc := ⟨.hbm, 150, rfl⟩
abbrev main_v119 : Ref sig .tc := ⟨.hbm, 151, rfl⟩
abbrev main_v120 : Ref sig .tc := ⟨.hbm, 152, rfl⟩
abbrev main_c_15 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_16 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_call4_cst : Ref sig .tc := ⟨.hbm, 171, rfl⟩
abbrev main_call4_v0 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_c_17 : Ref sig .tc := ⟨.hbm, 180, rfl⟩
abbrev main_v144 : Ref sig .tc := ⟨.hbm, 181, rfl⟩
abbrev main_v145 : Ref sig .tc := ⟨.hbm, 182, rfl⟩
abbrev main_c_18 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_19 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_call5_cst : Ref sig .tc := ⟨.hbm, 201, rfl⟩
abbrev main_call5_v0 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelTerms.lean ====
/-
  The host-side pieces of the kernel's program as functions of the argument arrays (any float family):
  the edge list's two rows (source and destination node of each edge), the reciprocal in-degree column, the row
  lookup `h[src]` in its two spellings (with and without the out-of-range fill), the sum of looked-up rows over each
  destination node, and each layer's weight matrices and bias row cut out of the stacked parameters.
-/
import proofs.«407880_j40888088658252_2_alg».proof.KernelIdeal

noncomputable section

namespace Cert.KernelIdeal.Terms

open Cert.KernelIdeal Idealize.ShloMosaic
open Facts₀ Facts

variable [Facts] {F : FTy → Type} [FloatOps F]

/-- The source node of every edge: row 0 of the edge list. -/
def srcT (e : IVec S2x600000 32) : IVec S600000 32 :=
  shapeCast S600000 (extractStridedSlice S1x600000 ![0, 0] e slices_S2x600000_S1x600000_0_0) shapeCasts_S1x600000_S600000

/-- The destination node of every edge: row 1 of the edge list. -/
def dstT (e : IVec S2x600000 32) : IVec S600000 32 :=
  shapeCast S600000 (extractStridedSlice S1x600000 ![1, 0] e slices_S2x600000_S1x600000_1_0) shapeCasts_S1x600000_S600000

/-- The reciprocal of each node's in-degree (the number of edges that end in it), the degree taken at least 1, as a column. -/
def dinvT (dst : IVec S600000 32) : FVec F S50000x1 .f32 :=
  broadcastInDim S50000x1 ![0] bcast_S50000_S50000x1_0
    (Host.divf (broadcastInDim S50000 ![] bcast_S_S50000 (constant S_ .f32 0x3F800000#32))
      (maximumf
        (Host.scatterAdd scatter_S50000_S600000x1_S600000_n_0_0_1
          (broadcastInDim S50000 ![] bcast_S_S50000 (constant S_ .f32 0x00000000#32))
          (broadcastInDim S600000x1 ![0] bcast_S600000_S600000x1_0 dst)
          (broadcastInDim S600000 ![] bcast_S_S600000 (constant S_ .f32 0x3F800000#32)))
        (broadcastInDim S50000 ![] bcast_S_S50000 (constant S_ .f32 0x3F800000#32))))

/-- A source index with a negative one counted from the end (50000 added), as the one-column index array the row
    lookup takes. -/
def wrapT (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- Per edge: is the wrapped source index inside `[0, 49999]`? -/
def inBoundsT (idx : IVec S600000x1 32) : IVec S600000 1 :=
  Host.reduce IntOp.andi
    (andi (cmpi .sge idx (broadcastInDim S600000x1 ![] bcast_S_S600000x1 (constantI S_ 32 0#32)))
      (cmpi .sle idx (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The plain row lookup: row `wrap (src e)` of `h` for every edge `e`. -/
def gatherT (h : FVec F S50000x128 .f32) (src : IVec S600000 32) : FVec F S600000x128 .f32 :=
  Host.gather gather_S50000x128_S600000x1_S600000x128_1_0_n_n_0_1_1128 h (wrapT src)

/-- The row lookup with a fill: the looked-up row where the wrapped index is in bounds, the fill pattern elsewhere. -/
def takeT (h : FVec F S50000x128 .f32) (src : IVec S600000 32) : FVec F S600000x128 .f32 :=
  select (broadcastInDim S600000x128 ![0] bcast_S600000_S600000x128_0 (inBoundsT (wrapT src)))
    (Host.gather gather_S50000x128_S600000x1_S600000x128_1_0_n_n_0_1_1128 h (wrapT src))
    (broadcastInDim S600000x128 ![] bcast_S_S600000x128 (constant S_ .f32 0x7FC00000#32))

/-- The rows of the edges that end in each node, summed (nodes with no incoming edge get zero). -/
def aggT (rows : FVec F S600000x128 .f32) (dst : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) rows

/-- Layer 0's matrix out of a stack of six. -/
def matT0 (w : FVec F S6x128x128 .f32) : FVec F S128x128 .f32 :=
  shapeCast S128x128 (extractStridedSlice S1x128x128 ![0, 0, 0] w slices_S6x128x128_S1x128x128_0_0_0) shapeCasts_S1x128x128_S128x128

/-- Layer 0's bias out of a stack of six, as a row. -/
def biasT0 (b : FVec F S6x128 .f32) : FVec F S1x128 .f32 :=
  shapeCast S1x128 (shapeCast S128 (extractStridedSlice S1x128 ![0, 0] b slices_S6x128_S1x128_0_0) shapeCasts_S1x128_S128) shapeCasts_S128_S1x128

/-- Layer 1's matrix out of a stack of six. -/
def matT1 (w : FVec F S6x128x128 .f32) : FVec F S128x128 .f32 :=
  shapeCast S128x128 (extractStridedSlice S1x128x128 ![1, 0, 0] w slices_S6x128x128_S1x128x128_1_0_0) shapeCasts_S1x128x128_S128x128

/-- Layer 1's bias out of a stack of six, as a row. -/
def biasT1 (b : FVec F S6x128 .f32) : FVec F S1x128 .f32 :=
  shapeCast S1x128 (shapeCast S128 (extractStridedSlice S1x128 ![1, 0] b slices_S6x128_S1x128_1_0) shapeCasts_S1x128_S128) shapeCasts_S128_S1x128

/-- Layer 2's matrix out of a stack of six. -/
def matT2 (w : FVec F S6x128x128 .f32) : FVec F S128x128 .f32 :=
  shapeCast S128x128 (extractStridedSlice S1x128x128 ![2, 0, 0] w slices_S6x128x128_S1x128x128_2_0_0) shapeCasts_S1x128x128_S128x128

/-- Layer 2's bias out of a stack of six, as a row. -/
def biasT2 (b : FVec F S6x128 .f32) : FVec F S1x128 .f32 :=
  shapeCast S1x128 (shapeCast S128 (extractStridedSlice S1x128 ![2, 0] b slices_S6x128_S1x128_2_0) shapeCasts_S1x128_S128) shapeCasts_S128_S1x128

/-- Layer 3's matrix out of a stack of six. -/
def matT3 (w : FVec F S6x128x128 .f32) : FVec F S128x128 .f32 :=
  shapeCast S128x128 (extractStridedSlice S1x128x128 ![3, 0, 0] w slices_S6x128x128_S1x128x128_3_0_0) shapeCasts_S1x128x128_S128x128

/-- Layer 3's bias out of a stack of six, as a row. -/
def biasT3 (b : FVec F S6x128 .f32) : FVec F S1x128 .f32 :=
  shapeCast S1x128 (shapeCast S128 (extractStridedSlice S1x128 ![3, 0] b slices_S6x128_S1x128_3_0) shapeCasts_S1x128_S128) shapeCasts_S128_S1x128

/-- Layer 4's matrix out of a stack of six. -/
def matT4 (w : FVec F S6x128x128 .f32) : FVec F S128x128 .f32 :=
  shapeCast S128x128 (extractStridedSlice S1x128x128 ![4, 0, 0] w slices_S6x128x128_S1x128x128_4_0_0) shapeCasts_S1x128x128_S128x128

/-- Layer 4's bias out of a stack of six, as a row. -/
def biasT4 (b : FVec F S6x128 .f32) : FVec F S1x128 .f32 :=
  shapeCast S1x128 (shapeCast S128 (extractStridedSlice S1x128 ![4, 0] b slices_S6x128_S1x128_4_0) shapeCasts_S1x128_S128) shapeCasts_S128_S1x128

/-- Layer 5's matrix out of a stack of six. -/
def matT5 (w : FVec F S6x128x128 .f32) : FVec F S128x128 .f32 :=
  shapeCast S128x128 (extractStridedSlice S1x128x128 ![5, 0, 0] w slices_S6x128x128_S1x128x128_5_0_0) shapeCasts_S1x128x128_S128x128

/-- Layer 5's bias out of a stack of six, as a row. -/
def biasT5 (b : FVec F S6x128 .f32) : FVec F S1x128 .f32 :=
  shapeCast S1x128 (shapeCast S128 (extractStridedSlice S1x128 ![5, 0] b slices_S6x128_S1x128_5_0) shapeCasts_S1x128_S128) shapeCasts_S128_S1x128

/-- The head's bias as a row. -/
def headBiasT (b : FVec F S2 .f32) : FVec F S1x2 .f32 := shapeCast S1x2 b shapeCasts_S2_S1x2

end Cert.KernelIdeal.Terms

end
-- ==== Proof.Persist.lean ====
/-
  Buffers that nothing later writes. The edge list's two rows and the reciprocal in-degree column are computed by the
  first stretch of host operations; the stacked weights, biases and the head's parameters are arguments. No later
  host operation and no call writes any of them (a call only reads the degree column through an input window), so
  at the exit of each of the first five calls they still hold what they held: the values the layer after it reads.
-/
import proofs.«407880_j40888088658252_2_alg».proof.Proof.Gen.KernelIdeal.Frame
import proofs.«407880_j40888088658252_2_alg».proof.Proof.KernelTerms
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What a boundary of the program must still hold for the layers after it: the two rows of the edge list, the
    reciprocal in-degree column, and the five parameter arguments as launched. -/
structure Kept (E : Dev nD → Valuation τ sig (Elt F)) (c : Dev nD) : Prop where
  src : E c (Proc.devRef .tc main_v1) = Terms.srcT (m ((c : Thread nD τ).loc main_arg1))
  dst : E c (Proc.devRef .tc main_v3) = Terms.dstT (m ((c : Thread nD τ).loc main_arg1))
  dinv : E c (Proc.devRef .tc main_v12) = Terms.dinvT (F := F) (Terms.dstT (m ((c : Thread nD τ).loc main_arg1)))
  wl : E c (Proc.devRef .tc main_arg2) = (m ((c : Thread nD τ).loc main_arg2))
  wr : E c (Proc.devRef .tc main_arg3) = (m ((c : Thread nD τ).loc main_arg3))
  bl : E c (Proc.devRef .tc main_arg4) = (m ((c : Thread nD τ).loc main_arg4))
  fw : E c (Proc.devRef .tc main_arg5) = (m ((c : Thread nD τ).loc main_arg5))
  fb : E c (Proc.devRef .tc main_arg6) = (m ((c : Thread nD τ).loc main_arg6))

/-- No operation of the named stretch writes the buffer in the goal, so the stretch leaves it as it was. -/
macro "host_keeps" h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- From a call's exit back to the exit of the call before it, for a buffer that is none of the call's windows
    (`ne`: the call leaves it) and that neither of the two stretches in between writes (`h1` the later, `h0` the
    earlier). -/
macro "through" ne:term "," h1:ident "," h0:ident : term =>
  `(Eq.trans $ne (Eq.trans (by host_keeps $h1) (by host_keeps $h0)))

/-! ### Up to the first call: the first stretch computes the three derived buffers, the next two leave them -/

theorem W3_v1 (c : Dev nD) :
    W3 m ρ c (Proc.devRef .tc main_v1) = Terms.srcT (m ((c : Thread nD τ).loc main_arg1)) :=
  calc W3 m ρ c (Proc.devRef .tc main_v1)
    _ = W2 m ρ c (Proc.devRef .tc main_v1) := by host_keeps hostOps0_2
    _ = W1 m ρ c (Proc.devRef .tc main_v1) := by host_keeps hostOps0_1
    _ = Terms.srcT (m ((c : Thread nD τ).loc main_arg1)) := by
        show StableHlo.after hostOps0 (W0 m ρ c) (Proc.devRef .tc main_v1) = _
        after_results
        rfl

theorem W3_v3 (c : Dev nD) :
    W3 m ρ c (Proc.devRef .tc main_v3) = Terms.dstT (m ((c : Thread nD τ).loc main_arg1)) :=
  calc W3 m ρ c (Proc.devRef .tc main_v3)
    _ = W2 m ρ c (Proc.devRef .tc main_v3) := by host_keeps hostOps0_2
    _ = W1 m ρ c (Proc.devRef .tc main_v3) := by host_keeps hostOps0_1
    _ = Terms.dstT (m ((c : Thread nD τ).loc main_arg1)) := by
        show StableHlo.after hostOps0 (W0 m ρ c) (Proc.devRef .tc main_v3) = _
        after_results
        rfl

theorem W3_v12 (c : Dev nD) :
    W3 m ρ c (Proc.devRef .tc main_v12) = Terms.dinvT (F := F) (Terms.dstT (m ((c : Thread nD τ).loc main_arg1))) :=
  calc W3 m ρ c (Proc.devRef .tc main_v12)
    _ = W2 m ρ c (Proc.devRef .tc main_v12) := by host_keeps hostOps0_2
    _ = W1 m ρ c (Proc.devRef .tc main_v12) := by host_keeps hostOps0_1
    _ = Terms.dinvT (F := F) (Terms.dstT (m ((c : Thread nD τ).loc main_arg1))) := by
        show StableHlo.after hostOps0 (W0 m ρ c) (Proc.devRef .tc main_v12) = _
        after_results
        rfl

/-- An argument no host operation of the first three stretches writes is still the launch memory at the first call's
    entry. -/
macro "launched" : tactic => `(tactic| (
  refine Eq.trans (by host_keeps hostOps0_2) (Eq.trans (by host_keeps hostOps0_1) (Eq.trans (by host_keeps hostOps0) ?_))
  rfl))

theorem W3_arg2 (c : Dev nD) : W3 m ρ c (Proc.devRef .tc main_arg2) = m ((c : Thread nD τ).loc main_arg2) := by launched
theorem W3_arg3 (c : Dev nD) : W3 m ρ c (Proc.devRef .tc main_arg3) = m ((c : Thread nD τ).loc main_arg3) := by launched
theorem W3_arg4 (c : Dev nD) : W3 m ρ c (Proc.devRef .tc main_arg4) = m ((c : Thread nD τ).loc main_arg4) := by launched
theorem W3_arg5 (c : Dev nD) : W3 m ρ c (Proc.devRef .tc main_arg5) = m ((c : Thread nD τ).loc main_arg5) := by launched
theorem W3_arg6 (c : Dev nD) : W3 m ρ c (Proc.devRef .tc main_arg6) = m ((c : Thread nD τ).loc main_arg6) := by launched

/-- After the first call (the second layer's entry). The call's third window is the degree column, an input: the
    call hands it back as it entered. The other seven buffers are none of its windows. -/
theorem kept_W4 (c : Dev nD) : Kept m (W4 m ρ) c where
  src := (W4_of_ne m ρ c main_v1 (by decide)).trans (W3_v1 m ρ c)
  dst := (W4_of_ne m ρ c main_v3 (by decide)).trans (W3_v3 m ρ c)
  dinv := ((W4_arr m ρ c 2).trans (((dat0 (V3 m ρ) c).arrAt_in 2 rfl _).trans (A_eq0 (V3 m ρ) c 2))).trans (W3_v12 m ρ c)
  wl := (W4_of_ne m ρ c main_arg2 (by decide)).trans (W3_arg2 m ρ c)
  wr := (W4_of_ne m ρ c main_arg3 (by decide)).trans (W3_arg3 m ρ c)
  bl := (W4_of_ne m ρ c main_arg4 (by decide)).trans (W3_arg4 m ρ c)
  fw := (W4_of_ne m ρ c main_arg5 (by decide)).trans (W3_arg5 m ρ c)
  fb := (W4_of_ne m ρ c main_arg6 (by decide)).trans (W3_arg6 m ρ c)

/-! ### Across the second call and the two stretches before it -/

theorem W7_v12 (c : Dev nD) : W7 m ρ c (Proc.devRef .tc main_v12) = W4 m ρ c (Proc.devRef .tc main_v12) :=
  calc W7 m ρ c (Proc.devRef .tc main_v12)
    _ = W6 m ρ c (Proc.devRef .tc main_v12) :=
        (W7_arr m ρ c 2).trans (((dat1 (V6 m ρ) c).arrAt_in 2 rfl _).trans (A_eq1 (V6 m ρ) c 2))
    _ = W5 m ρ c (Proc.devRef .tc main_v12) := by host_keeps hostOps1_1
    _ = W4 m ρ c (Proc.devRef .tc main_v12) := by host_keeps hostOps1

/-- After the second call. -/
theorem kept_W7 (c : Dev nD) : Kept m (W7 m ρ) c :=
  have h := kept_W4 m ρ c
  { src := (through (W7_of_ne m ρ c main_v1 (by decide)), hostOps1_1, hostOps1).trans h.src
    dst := (through (W7_of_ne m ρ c main_v3 (by decide)), hostOps1_1, hostOps1).trans h.dst
    dinv := (W7_v12 m ρ c).trans h.dinv
    wl := (through (W7_of_ne m ρ c main_arg2 (by decide)), hostOps1_1, hostOps1).trans h.wl
    wr := (through (W7_of_ne m ρ c main_arg3 (by decide)), hostOps1_1, hostOps1).trans h.wr
    bl := (through (W7_of_ne m ρ c main_arg4 (by decide)), hostOps1_1, hostOps1).trans h.bl
    fw := (through (W7_of_ne m ρ c main_arg5 (by decide)), hostOps1_1, hostOps1).trans h.fw
    fb := (through (W7_of_ne m ρ c main_arg6 (by decide)), hostOps1_1, hostOps1).trans h.fb }

/-! ### Across the third call and the two stretches before it -/

theorem W10_v12 (c : Dev nD) : W10 m ρ c (Proc.devRef .tc main_v12) = W7 m ρ c (Proc.devRef .tc main_v12) :=
  calc W10 m ρ c (Proc.devRef .tc main_v12)
    _ = W9 m ρ c (Proc.devRef .tc main_v12) :=
        (W10_arr m ρ c 2).trans (((dat2 (V9 m ρ) c).arrAt_in 2 rfl _).trans (A_eq2 (V9 m ρ) c 2))
    _ = W8 m ρ c (Proc.devRef .tc main_v12) := by host_keeps hostOps2_1
    _ = W7 m ρ c (Proc.devRef .tc main_v12) := by host_keeps hostOps2

/-- After the third call. -/
theorem kept_W10 (c : Dev nD) : Kept m (W10 m ρ) c :=
  have h := kept_W7 m ρ c
  { src := (through (W10_of_ne m ρ c main_v1 (by decide)), hostOps2_1, hostOps2).trans h.src
    dst := (through (W10_of_ne m ρ c main_v3 (by decide)), hostOps2_1, hostOps2).trans h.dst
    dinv := (W10_v12 m ρ c).trans h.dinv
    wl := (through (W10_of_ne m ρ c main_arg2 (by decide)), hostOps2_1, hostOps2).trans h.wl
    wr := (through (W10_of_ne m ρ c main_arg3 (by decide)), hostOps2_1, hostOps2).trans h.wr
    bl := (through (W10_of_ne m ρ c main_arg4 (by decide)), hostOps2_1, hostOps2).trans h.bl
    fw := (through (W10_of_ne m ρ c main_arg5 (by decide)), hostOps2_1, hostOps2).trans h.fw
    fb := (through (W10_of_ne m ρ c main_arg6 (by decide)), hostOps2_1, hostOps2).trans h.fb }

/-! ### Across the fourth call and the two stretches before it -/

theorem W13_v12 (c : Dev nD) : W13 m ρ c (Proc.devRef .tc main_v12) = W10 m ρ c (Proc.devRef .tc main_v12) :=
  calc W13 m ρ c (Proc.devRef .tc main_v12)
    _ = W12 m ρ c (Proc.devRef .tc main_v12) :=
        (W13_arr m ρ c 2).trans (((dat3 (V12 m ρ) c).arrAt_in 2 rfl _).trans (A_eq3 (V12 m ρ) c 2))
    _ = W11 m ρ c (Proc.devRef .tc main_v12) := by host_keeps hostOps3_1
    _ = W10 m ρ c (Proc.devRef .tc main_v12) := by host_keeps hostOps3

/-- After the fourth call. -/
theorem kept_W13 (c : Dev nD) : Kept m (W13 m ρ) c :=
  have h := kept_W10 m ρ c
  { src := (through (W13_of_ne m ρ c main_v1 (by decide)), hostOps3_1, hostOps3).trans h.src
    dst := (through (W13_of_ne m ρ c main_v3 (by decide)), hostOps3_1, hostOps3).trans h.dst
    dinv := (W13_v12 m ρ c).trans h.dinv
    wl := (through (W13_of_ne m ρ c main_arg2 (by decide)), hostOps3_1, hostOps3).trans h.wl
    wr := (through (W13_of_ne m ρ c main_arg3 (by decide)), hostOps3_1, hostOps3).trans h.wr
    bl := (through (W13_of_ne m ρ c main_arg4 (by decide)), hostOps3_1, hostOps3).trans h.bl
    fw := (through (W13_of_ne m ρ c main_arg5 (by decide)), hostOps3_1, hostOps3).trans h.fw
    fb := (through (W13_of_ne m ρ c main_arg6 (by decide)), hostOps3_1, hostOps3).trans h.fb }

/-! ### Across the fifth call and the two stretches before it -/

theorem W16_v12 (c : Dev nD) : W16 m ρ c (Proc.devRef .tc main_v12) = W13 m ρ c (Proc.devRef .tc main_v12) :=
  calc W16 m ρ c (Proc.devRef .tc main_v12)
    _ = W15 m ρ c (Proc.devRef .tc main_v12) :=
        (W16_arr m ρ c 2).trans (((dat4 (V15 m ρ) c).arrAt_in 2 rfl _).trans (A_eq4 (V15 m ρ) c 2))
    _ = W14 m ρ c (Proc.devRef .tc main_v12) := by host_keeps hostOps4_1
    _ = W13 m ρ c (Proc.devRef .tc main_v12) := by host_keeps hostOps4

/-- After the fifth call (the last layer's entry). -/
theorem kept_W16 (c : Dev nD) : Kept m (W16 m ρ) c :=
  have h := kept_W13 m ρ c
  { src := (through (W16_of_ne m ρ c main_v1 (by decide)), hostOps4_1, hostOps4).trans h.src
    dst := (through (W16_of_ne m ρ c main_v3 (by decide)), hostOps4_1, hostOps4).trans h.dst
    dinv := (W16_v12 m ρ c).trans h.dinv
    wl := (through (W16_of_ne m ρ c main_arg2 (by decide)), hostOps4_1, hostOps4).trans h.wl
    wr := (through (W16_of_ne m ρ c main_arg3 (by decide)), hostOps4_1, hostOps4).trans h.wr
    bl := (through (W16_of_ne m ρ c main_arg4 (by decide)), hostOps4_1, hostOps4).trans h.bl
    fw := (through (W16_of_ne m ρ c main_arg5 (by decide)), hostOps4_1, hostOps4).trans h.fw
    fb := (through (W16_of_ne m ρ c main_arg6 (by decide)), hostOps4_1, hostOps4).trans h.fb }

end Cert.KernelIdeal.Chain

end
-- ==== Proof.SageSpec.lean ====
/-
  One layer of the stacked graph convolution, and the linear head, as whole-array functions over the extended
  reals, index by index.

  A layer takes the summed neighbour rows `a` (one row per node), the node features `h`, the reciprocal
  in-degree column `d`, the neighbour weights `wl`, the root weights `wr` and the bias row `b`, and gives

      out r j = max ( (Σ_k (a r k · d r) · wl k j  +  Σ_k h r k · wr k j)  +  b j ) 0 .

  The head applies one more matrix product and bias to a layer's output:

      logits r o = Σ_k out r k · fw k o  +  fb o .

  Both programs compute exactly these sums: the tiled kernel row block by row block, the reference on whole
  arrays; a finite sum of extended reals does not depend on how its terms are grouped into row blocks, since a row
  of the output depends on one row of `a`, `h` and `d` only.
-/
import Idealize.ShloMosaic.PureOps.Ideal
import Idealize.ShloMosaic.Lib.ValueIdx

noncomputable section

namespace Cert.Sage

open Idealize.ShloMosaic Idealize.ShloMosaic.ValueIdx

/-- Nodes × features. -/
abbrev SNxD : Shape := ⟨2, ![50000, 128]⟩
/-- Nodes × one column (the reciprocal in-degree). -/
abbrev SNx1 : Shape := ⟨2, ![50000, 1]⟩
/-- A square weight matrix. -/
abbrev SDxD : Shape := ⟨2, ![128, 128]⟩
/-- A bias row. -/
abbrev S1xD : Shape := ⟨2, ![1, 128]⟩
/-- The head's weight matrix. -/
abbrev SDxO : Shape := ⟨2, ![128, 2]⟩
/-- The head's bias row. -/
abbrev S1xO : Shape := ⟨2, ![1, 2]⟩
/-- Nodes × classes. -/
abbrev SNxO : Shape := ⟨2, ![50000, 2]⟩

/-- Row `r`, column `j` of a layer before the rectifier: the normalised neighbour sum through `wl`, plus the
    node's own features through `wr`, plus the bias. -/
def preact (a h : SNxD.Idx → EReal) (d : SNx1.Idx → EReal) (wl wr : SDxD.Idx → EReal) (b : S1xD.Idx → EReal)
    (r : Fin 50000) (j : Fin 128) : EReal :=
  ((∑ k : Fin 128, (a (ix2 r k) * d (ix2 r (0 : Fin 1))) * wl (ix2 k j))
    + (∑ k : Fin 128, h (ix2 r k) * wr (ix2 k j)))
    + b (ix2 (0 : Fin 1) j)

/-- One layer: the rectified pre-activation. -/
def layer (a h : SNxD.Idx → EReal) (d : SNx1.Idx → EReal) (wl wr : SDxD.Idx → EReal) (b : S1xD.Idx → EReal) :
    SNxD.Idx → EReal :=
  fun i => max (preact a h d wl wr b (i 0) (i 1)) 0

/-- The last layer followed by the linear head. -/
def head (a h : SNxD.Idx → EReal) (d : SNx1.Idx → EReal) (wl wr : SDxD.Idx → EReal) (b : S1xD.Idx → EReal)
    (fw : SDxO.Idx → EReal) (fb : S1xO.Idx → EReal) : SNxO.Idx → EReal :=
  fun i => (∑ k : Fin 128, layer a h d wl wr b (ix2 (i 0) k) * fw (ix2 k (i 1))) + fb (ix2 (0 : Fin 1) (i 1))

theorem layer_apply (a h : SNxD.Idx → EReal) (d : SNx1.Idx → EReal) (wl wr : SDxD.Idx → EReal) (b : S1xD.Idx → EReal)
    (r : Fin 50000) (j : Fin 128) : layer a h d wl wr b (ix2 r j) = max (preact a h d wl wr b r j) 0 := rfl

theorem head_apply (a h : SNxD.Idx → EReal) (d : SNx1.Idx → EReal) (wl wr : SDxD.Idx → EReal) (b : S1xD.Idx → EReal)
    (fw : SDxO.Idx → EReal) (fb : S1xO.Idx → EReal) (r : Fin 50000) (o : Fin 2) :
    head a h d wl wr b fw fb (ix2 r o)
      = (∑ k : Fin 128, max (preact a h d wl wr b r k) 0 * fw (ix2 k o)) + fb (ix2 (0 : Fin 1) o) := rfl

end Cert.Sage

end
-- ==== Proof.LayerSteps.lean ====
/-
  The middle four calls' output arrays in terms of what their layers read. A call's output is the layer function of the
  six arrays it is handed (the region's value); of those, the neighbour sum is the sum over each destination node of
  the rows looked up at the source nodes in the previous call's output, and the weights and bias are cut out of the
  stacked parameters by the host operations between the calls. Each layer is stated from the contents at the exit of
  the call before it.
-/
import proofs.«407880_j40888088658252_2_alg».proof.Proof.Gen.KernelIdeal.Frame
import proofs.«407880_j40888088658252_2_alg».proof.Proof.KernelTerms
import proofs.«407880_j40888088658252_2_alg».proof.Proof.RegionLayer1
import proofs.«407880_j40888088658252_2_alg».proof.Proof.RegionLayer2
import proofs.«407880_j40888088658252_2_alg».proof.Proof.RegionLayer3
import proofs.«407880_j40888088658252_2_alg».proof.Proof.RegionLayer4
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Layer 1

### The row lookup before call 1, from any contents

Its 23 operations fall into three stretches, each read on its own: the wrapped index (the first 8 operations), the
in-bounds test of that index (the next 10), and the lookup itself with the fill where the test fails (the last 5). -/

/-- The first 8 operations: the source index, 50000 added where negative, as a one-column array. -/
abbrev wrapOps1 : List (HloOp τ sig (Elt Ideal)) := hostOps1.take 8
/-- The next 10: is that index inside `[0, 49999]`? -/
abbrev testOps1 : List (HloOp τ sig (Elt Ideal)) := (hostOps1.drop 8).take 10
/-- The last 5: the looked-up rows where it is, the fill pattern elsewhere. -/
abbrev fillOps1 : List (HloOp τ sig (Elt Ideal)) := hostOps1.drop 18

theorem lookup1_split : (hostOps1 : List (HloOp τ sig (Elt Ideal))) = wrapOps1 ++ (testOps1 ++ fillOps1) := rfl

theorem wrap1 (V : Valuation τ sig (Elt Ideal)) :
    StableHlo.after wrapOps1 V (Proc.devRef .tc main_call1_v5) = Terms.wrapT (V (Proc.devRef .tc main_v1)) := by
  simp only [wrapOps1, hostOps1, List.take_succ_cons, List.take_zero]
  after_results_simp
  simp only [TRef.ofBuf, TRef.toBuf, cast_eq]
  rfl

/-- The first stretch writes only its own temporaries: the features pass. -/
theorem wrap1_feat (V : Valuation τ sig (Elt Ideal)) :
    StableHlo.after wrapOps1 V (Proc.devRef .tc main_v24) = V (Proc.devRef .tc main_v24) := by
  simp only [wrapOps1, hostOps1, List.take_succ_cons, List.take_zero]
  after_results_simp

theorem test1 (G : Valuation τ sig (Elt Ideal)) :
    StableHlo.after testOps1 G (Proc.devRef .tc main_call1_v12) = Terms.inBoundsT (G (Proc.devRef .tc main_call1_v5)) := by
  simp only [testOps1, hostOps1, List.drop_succ_cons, List.drop_zero, List.take_succ_cons, List.take_zero]
  after_results_simp
  simp only [TRef.ofBuf, TRef.toBuf, cast_eq]
  rfl

/-- The second stretch leaves the wrapped index … -/
theorem test1_idx (G : Valuation τ sig (Elt Ideal)) :
    StableHlo.after testOps1 G (Proc.devRef .tc main_call1_v5) = G (Proc.devRef .tc main_call1_v5) := by
  simp only [testOps1, hostOps1, List.drop_succ_cons, List.drop_zero, List.take_succ_cons, List.take_zero]
  after_results_simp

/-- … and the features as they were. -/
theorem test1_feat (G : Valuation τ sig (Elt Ideal)) :
    StableHlo.after testOps1 G (Proc.devRef .tc main_v24) = G (Proc.devRef .tc main_v24) := by
  simp only [testOps1, hostOps1, List.drop_succ_cons, List.drop_zero, List.take_succ_cons, List.take_zero]
  after_results_simp

theorem fill1 (G : Valuation τ sig (Elt Ideal)) :
    StableHlo.after fillOps1 G (Proc.devRef .tc main_v25)
      = (select (broadcastInDim S600000x128 ![0] bcast_S600000_S600000x128_0 (G (Proc.devRef .tc main_call1_v12)))
          (Host.gather gather_S50000x128_S600000x1_S600000x128_1_0_n_n_0_1_1128 (G (Proc.devRef .tc main_v24)) (G (Proc.devRef .tc main_call1_v5)))
          (broadcastInDim S600000x128 ![] bcast_S_S600000x128 (constant (F := Ideal) S_ .f32 0x7FC00000#32)) : FVec Ideal S600000x128 .f32) := by
  simp only [fillOps1, hostOps1, List.drop_succ_cons, List.drop_zero]
  after_results_simp
  simp only [TRef.ofBuf, TRef.toBuf, cast_eq]

/-- The whole lookup: the three stretches one after the other are the named term of the features and the source row. -/
theorem lookup1 (V : Valuation τ sig (Elt Ideal)) :
    StableHlo.after hostOps1 V (Proc.devRef .tc main_v25)
      = Terms.takeT (F := Ideal) (V (Proc.devRef .tc main_v24)) (V (Proc.devRef .tc main_v1)) := by
  rw [lookup1_split, StableHlo.after_append, StableHlo.after_append, fill1, test1, test1_idx, test1_feat, wrap1, wrap1_feat]
  rfl

/-- The lookup does not write the destination row. -/
theorem lookup1_dst (V : Valuation τ sig (Elt Ideal)) :
    StableHlo.after hostOps1 V (Proc.devRef .tc main_v3) = V (Proc.devRef .tc main_v3) := by
  after_results_simp

/-- The operations after the lookup add the looked-up rows up at every edge's destination node. -/
theorem scatter1 (G : Valuation τ sig (Elt Ideal)) :
    StableHlo.after hostOps1_1 G (Proc.devRef .tc main_v28) = Terms.aggT (F := Ideal) (G (Proc.devRef .tc main_v25)) (G (Proc.devRef .tc main_v3)) := by
  after_results_simp
  rfl

/-! ### What call 1 finds in the six arrays it reads, from the contents at the exit of call 0 -/

/-- The features call 1 reads are call 0's output: no host operation in between writes that array. -/
theorem entry1_feat (c : Dev nD) : W6 m ρ c (Proc.devRef .tc main_v24) = W4 m ρ c (Proc.devRef .tc main_v24) := by
  show StableHlo.after hostOps1_1 (StableHlo.after hostOps1 (W4 m ρ c)) (Proc.devRef .tc main_v24) = _
  after_results_simp

/-- The reciprocal in-degree column is not written between the two calls. -/
theorem entry1_dinv (c : Dev nD) : W6 m ρ c (Proc.devRef .tc main_v12) = W4 m ρ c (Proc.devRef .tc main_v12) := by
  show StableHlo.after hostOps1_1 (StableHlo.after hostOps1 (W4 m ρ c)) (Proc.devRef .tc main_v12) = _
  after_results_simp

/-- The neighbour weights of layer 1: slice 1 of the stacked matrices, with the unit axis dropped. -/
theorem entry1_wl (c : Dev nD) : W6 m ρ c (Proc.devRef .tc main_v30) = Terms.matT1 (F := Ideal) (W4 m ρ c (Proc.devRef .tc main_arg2)) := by
  show StableHlo.after hostOps1_1 (StableHlo.after hostOps1 (W4 m ρ c)) (Proc.devRef .tc main_v30) = _
  after_results_simp
  rfl

/-- The root weights of layer 1: slice 1 of the second stack. -/
theorem entry1_wr (c : Dev nD) : W6 m ρ c (Proc.devRef .tc main_v32) = Terms.matT1 (F := Ideal) (W4 m ρ c (Proc.devRef .tc main_arg3)) := by
  show StableHlo.after hostOps1_1 (StableHlo.after hostOps1 (W4 m ρ c)) (Proc.devRef .tc main_v32) = _
  after_results_simp
  rfl

/-- The bias of layer 1: row 1 of the stacked biases, flattened and set up again as a one-row array. -/
theorem entry1_bias (c : Dev nD) : W6 m ρ c (Proc.devRef .tc main_v35) = Terms.biasT1 (F := Ideal) (W4 m ρ c (Proc.devRef .tc main_arg4)) := by
  show StableHlo.after hostOps1_1 (StableHlo.after hostOps1 (W4 m ρ c)) (Proc.devRef .tc main_v35) = _
  after_results_simp
  rfl

/-- The neighbour sums call 1 reads: the row lookup of call 0's output at every edge's source node, then those
    rows added up at every edge's destination node. -/
theorem entry1_agg (c : Dev nD) :
    W6 m ρ c (Proc.devRef .tc main_v28)
      = Terms.aggT (F := Ideal) (Terms.takeT (F := Ideal) (W4 m ρ c (Proc.devRef .tc main_v24)) (W4 m ρ c (Proc.devRef .tc main_v1))) (W4 m ρ c (Proc.devRef .tc main_v3)) := by
  show StableHlo.after hostOps1_1 (StableHlo.after hostOps1 (W4 m ρ c)) (Proc.devRef .tc main_v28) = _
  rw [scatter1, lookup1, lookup1_dst]

/-- Layer 1, from the contents at the exit of the call before it. -/
theorem step1 (c : Dev nD) :
    W7 m ρ c (Proc.devRef .tc main_v36)
      = Cert.Sage.layer (Terms.aggT (F := Ideal) (Terms.takeT (F := Ideal) (W4 m ρ c (Proc.devRef .tc main_v24)) (W4 m ρ c (Proc.devRef .tc main_v1))) (W4 m ρ c (Proc.devRef .tc main_v3)))
          (W4 m ρ c (Proc.devRef .tc main_v24)) (W4 m ρ c (Proc.devRef .tc main_v12))
          (Terms.matT1 (F := Ideal) (W4 m ρ c (Proc.devRef .tc main_arg2))) (Terms.matT1 (F := Ideal) (W4 m ρ c (Proc.devRef .tc main_arg3))) (Terms.biasT1 (F := Ideal) (W4 m ρ c (Proc.devRef .tc main_arg4))) := by
  -- the output window's array at the exit is the region's value at its entry contents …
  refine (W7_arr m ρ c 6).trans ((Cert.KernelIdeal.RegionValue.region1_array (V6 m ρ) c).trans ?_)
  -- … and the entry contents of the six arrays it reads are the six terms above
  show Cert.Sage.layer (W6 m ρ c (Proc.devRef .tc main_v28)) (W6 m ρ c (Proc.devRef .tc main_v24)) (W6 m ρ c (Proc.devRef .tc main_v12))
      (W6 m ρ c (Proc.devRef .tc main_v30)) (W6 m ρ c (Proc.devRef .tc main_v32)) (W6 m ρ c (Proc.devRef .tc main_v35)) = _
  rw [entry1_agg m ρ c, entry1_feat m ρ c, entry1_dinv m ρ c, entry1_wl m ρ c, entry1_wr m ρ c, entry1_bias m ρ c]

/-! ## Layer 2

### The row lookup before call 2, from any contents

Its 23 operations fall into three stretches, each read on its own: the wrapped index (the first 8 operations), the
in-bounds test of that index (the next 10), and the lookup itself with the fill where the test fails (the last 5). -/

/-- The first 8 operations: the source index, 50000 added where negative, as a one-column array. -/
abbrev wrapOps2 : List (HloOp τ sig (Elt Ideal)) := hostOps2.take 8
/-- The next 10: is that index inside `[0, 49999]`? -/
abbrev testOps2 : List (HloOp τ sig (Elt Ideal)) := (hostOps2.drop 8).take 10
/-- The last 5: the looked-up rows where it is, the fill pattern elsewhere. -/
abbrev fillOps2 : List (HloOp τ sig (Elt Ideal)) := hostOps2.drop 18

theorem lookup2_split : (hostOps2 : List (HloOp τ sig (Elt Ideal))) = wrapOps2 ++ (testOps2 ++ fillOps2) := rfl

theorem wrap2 (V : Valuation τ sig (Elt Ideal)) :
    StableHlo.after wrapOps2 V (Proc.devRef .tc main_call2_v5) = Terms.wrapT (V (Proc.devRef .tc main_v1)) := by
  simp only [wrapOps2, hostOps2, List.take_succ_cons, List.take_zero]
  after_results_simp
  simp only [TRef.ofBuf, TRef.toBuf, cast_eq]
  rfl

/-- The first stretch writes only its own temporaries: the features pass. -/
theorem wrap2_feat (V : Valuation τ sig (Elt Ideal)) :
    StableHlo.after wrapOps2 V (Proc.devRef .tc main_v36) = V (Proc.devRef .tc main_v36) := by
  simp only [wrapOps2, hostOps2, List.take_succ_cons, List.take_zero]
  after_results_simp

theorem test2 (G : Valuation τ sig (Elt Ideal)) :
    StableHlo.after testOps2 G (Proc.devRef .tc main_call2_v12) = Terms.inBoundsT (G (Proc.devRef .tc main_call2_v5)) := by
  simp only [testOps2, hostOps2, List.drop_succ_cons, List.drop_zero, List.take_succ_cons, List.take_zero]
  after_results_simp
  simp only [TRef.ofBuf, TRef.toBuf, cast_eq]
  rfl

/-- The second stretch leaves the wrapped index … -/
theorem test2_idx (G : Valuation τ sig (Elt Ideal)) :
    StableHlo.after testOps2 G (Proc.devRef .tc main_call2_v5) = G (Proc.devRef .tc main_call2_v5) := by
  simp only [testOps2, hostOps2, List.drop_succ_cons, List.drop_zero, List.take_succ_cons, List.take_zero]
  after_results_simp

/-- … and the features as they were. -/
theorem test2_feat (G : Valuation τ sig (Elt Ideal)) :
    StableHlo.after testOps2 G (Proc.devRef .tc main_v36) = G (Proc.devRef .tc main_v36) := by
  simp only [testOps2, hostOps2, List.drop_succ_cons, List.drop_zero, List.take_succ_cons, List.take_zero]
  after_results_simp

theorem fill2 (G : Valuation τ sig (Elt Ideal)) :
    StableHlo.after fillOps2 G (Proc.devRef .tc main_v37)
      = (select (broadcastInDim S600000x128 ![0] bcast_S600000_S600000x128_0 (G (Proc.devRef .tc main_call2_v12)))
          (Host.gather gather_S50000x128_S600000x1_S600000x128_1_0_n_n_0_1_1128 (G (Proc.devRef .tc main_v36)) (G (Proc.devRef .tc main_call2_v5)))
          (broadcastInDim S600000x128 ![] bcast_S_S600000x128 (constant (F := Ideal) S_ .f32 0x7FC00000#32)) : FVec Ideal S600000x128 .f32) := by
  simp only [fillOps2, hostOps2, List.drop_succ_cons, List.drop_zero]
  after_results_simp
  simp only [TRef.ofBuf, TRef.toBuf, cast_eq]

/-- The whole lookup: the three stretches one after the other are the named term of the features and the source row. -/
theorem lookup2 (V : Valuation τ sig (Elt Ideal)) :
    StableHlo.after hostOps2 V (Proc.devRef .tc main_v37)
      = Terms.takeT (F := Ideal) (V (Proc.devRef .tc main_v36)) (V (Proc.devRef .tc main_v1)) := by
  rw [lookup2_split, StableHlo.after_append, StableHlo.after_append, fill2, test2, test2_idx, test2_feat, wrap2, wrap2_feat]
  rfl

/-- The lookup does not write the destination row. -/
theorem lookup2_dst (V : Valuation τ sig (Elt Ideal)) :
    StableHlo.after hostOps2 V (Proc.devRef .tc main_v3) = V (Proc.devRef .tc main_v3) := by
  after_results_simp

/-- The operations after the lookup add the looked-up rows up at every edge's destination node. -/
theorem scatter2 (G : Valuation τ sig (Elt Ideal)) :
    StableHlo.after hostOps2_1 G (Proc.devRef .tc main_v40) = Terms.aggT (F := Ideal) (G (Proc.devRef .tc main_v37)) (G (Proc.devRef .tc main_v3)) := by
  after_results_simp
  rfl

/-! ### What call 2 finds in the six arrays it reads, from the contents at the exit of call 1 -/

/-- The features call 2 reads are call 1's output: no host operation in between writes that array. -/
theorem entry2_feat (c : Dev nD) : W9 m ρ c (Proc.devRef .tc main_v36) = W7 m ρ c (Proc.devRef .tc main_v36) := by
  show StableHlo.after hostOps2_1 (StableHlo.after hostOps2 (W7 m ρ c)) (Proc.devRef .tc main_v36) = _
  after_results_simp

/-- The reciprocal in-degree column is not written between the two calls. -/
theorem entry2_dinv (c : Dev nD) : W9 m ρ c (Proc.devRef .tc main_v12) = W7 m ρ c (Proc.devRef .tc main_v12) := by
  show StableHlo.after hostOps2_1 (StableHlo.after hostOps2 (W7 m ρ c)) (Proc.devRef .tc main_v12) = _
  after_results_simp

/-- The neighbour weights of layer 2: slice 2 of the stacked matrices, with the unit axis dropped. -/
theorem entry2_wl (c : Dev nD) : W9 m ρ c (Proc.devRef .tc main_v42) = Terms.matT2 (F := Ideal) (W7 m ρ c (Proc.devRef .tc main_arg2)) := by
  show StableHlo.after hostOps2_1 (StableHlo.after hostOps2 (W7 m ρ c)) (Proc.devRef .tc main_v42) = _
  after_results_simp
  rfl

/-- The root weights of layer 2: slice 2 of the second stack. -/
theorem entry2_wr (c : Dev nD) : W9 m ρ c (Proc.devRef .tc main_v44) = Terms.matT2 (F := Ideal) (W7 m ρ c (Proc.devRef .tc main_arg3)) := by
  show StableHlo.after hostOps2_1 (StableHlo.after hostOps2 (W7 m ρ c)) (Proc.devRef .tc main_v44) = _
  after_results_simp
  rfl

/-- The bias of layer 2: row 2 of the stacked biases, flattened and set up again as a one-row array. -/
theorem entry2_bias (c : Dev nD) : W9 m ρ c (Proc.devRef .tc main_v47) = Terms.biasT2 (F := Ideal) (W7 m ρ c (Proc.devRef .tc main_arg4)) := by
  show StableHlo.after hostOps2_1 (StableHlo.after hostOps2 (W7 m ρ c)) (Proc.devRef .tc main_v47) = _
  after_results_simp
  rfl

/-- The neighbour sums call 2 reads: the row lookup of call 1's output at every edge's source node, then those
    rows added up at every edge's destination node. -/
theorem entry2_agg (c : Dev nD) :
    W9 m ρ c (Proc.devRef .tc main_v40)
      = Terms.aggT (F := Ideal) (Terms.takeT (F := Ideal) (W7 m ρ c (Proc.devRef .tc main_v36)) (W7 m ρ c (Proc.devRef .tc main_v1))) (W7 m ρ c (Proc.devRef .tc main_v3)) := by
  show StableHlo.after hostOps2_1 (StableHlo.after hostOps2 (W7 m ρ c)) (Proc.devRef .tc main_v40) = _
  rw [scatter2, lookup2, lookup2_dst]

/-- Layer 2, from the contents at the exit of the call before it. -/
theorem step2 (c : Dev nD) :
    W10 m ρ c (Proc.devRef .tc main_v48)
      = Cert.Sage.layer (Terms.aggT (F := Ideal) (Terms.takeT (F := Ideal) (W7 m ρ c (Proc.devRef .tc main_v36)) (W7 m ρ c (Proc.devRef .tc main_v1))) (W7 m ρ c (Proc.devRef .tc main_v3)))
          (W7 m ρ c (Proc.devRef .tc main_v36)) (W7 m ρ c (Proc.devRef .tc main_v12))
          (Terms.matT2 (F := Ideal) (W7 m ρ c (Proc.devRef .tc main_arg2))) (Terms.matT2 (F := Ideal) (W7 m ρ c (Proc.devRef .tc main_arg3))) (Terms.biasT2 (F := Ideal) (W7 m ρ c (Proc.devRef .tc main_arg4))) := by
  -- the output window's array at the exit is the region's value at its entry contents …
  refine (W10_arr m ρ c 6).trans ((Cert.KernelIdeal.RegionValue.region2_array (V9 m ρ) c).trans ?_)
  -- … and the entry contents of the six arrays it reads are the six terms above
  show Cert.Sage.layer (W9 m ρ c (Proc.devRef .tc main_v40)) (W9 m ρ c (Proc.devRef .tc main_v36)) (W9 m ρ c (Proc.devRef .tc main_v12))
      (W9 m ρ c (Proc.devRef .tc main_v42)) (W9 m ρ c (Proc.devRef .tc main_v44)) (W9 m ρ c (Proc.devRef .tc main_v47)) = _
  rw [entry2_agg m ρ c, entry2_feat m ρ c, entry2_dinv m ρ c, entry2_wl m ρ c, entry2_wr m ρ c, entry2_bias m ρ c]

/-! ## Layer 3

### The row lookup before call 3, from any contents

Its 23 operations fall into three stretches, each read on its own: the wrapped index (the first 8 operations), the
in-bounds test of that index (the next 10), and the lookup itself with the fill where the test fails (the last 5). -/

/-- The first 8 operations: the source index, 50000 added where negative, as a one-column array. -/
abbrev wrapOps3 : List (HloOp τ sig (Elt Ideal)) := hostOps3.take 8
/-- The next 10: is that index inside `[0, 49999]`? -/
abbrev testOps3 : List (HloOp τ sig (Elt Ideal)) := (hostOps3.drop 8).take 10
/-- The last 5: the looked-up rows where it is, the fill pattern elsewhere. -/
abbrev fillOps3 : List (HloOp τ sig (Elt Ideal)) := hostOps3.drop 18

theorem lookup3_split : (hostOps3 : List (HloOp τ sig (Elt Ideal))) = wrapOps3 ++ (testOps3 ++ fillOps3) := rfl

theorem wrap3 (V : Valuation τ sig (Elt Ideal)) :
    StableHlo.after wrapOps3 V (Proc.devRef .tc main_call3_v5) = Terms.wrapT (V (Proc.devRef .tc main_v1)) := by
  simp only [wrapOps3, hostOps3, List.take_succ_cons, List.take_zero]
  after_results_simp
  simp only [TRef.ofBuf, TRef.toBuf, cast_eq]
  rfl

/-- The first stretch writes only its own temporaries: the features pass. -/
theorem wrap3_feat (V : Valuation τ sig (Elt Ideal)) :
    StableHlo.after wrapOps3 V (Proc.devRef .tc main_v48) = V (Proc.devRef .tc main_v48) := by
  simp only [wrapOps3, hostOps3, List.take_succ_cons, List.take_zero]
  after_results_simp

theorem test3 (G : Valuation τ sig (Elt Ideal)) :
    StableHlo.after testOps3 G (Proc.devRef .tc main_call3_v12) = Terms.inBoundsT (G (Proc.devRef .tc main_call3_v5)) := by
  simp only [testOps3, hostOps3, List.drop_succ_cons, List.drop_zero, List.take_succ_cons, List.take_zero]
  after_results_simp
  simp only [TRef.ofBuf, TRef.toBuf, cast_eq]
  rfl

/-- The second stretch leaves the wrapped index … -/
theorem test3_idx (G : Valuation τ sig (Elt Ideal)) :
    StableHlo.after testOps3 G (Proc.devRef .tc main_call3_v5) = G (Proc.devRef .tc main_call3_v5) := by
  simp only [testOps3, hostOps3, List.drop_succ_cons, List.drop_zero, List.take_succ_cons, List.take_zero]
  after_results_simp

/-- … and the features as they were. -/
theorem test3_feat (G : Valuation τ sig (Elt Ideal)) :
    StableHlo.after testOps3 G (Proc.devRef .tc main_v48) = G (Proc.devRef .tc main_v48) := by
  simp only [testOps3, hostOps3, List.drop_succ_cons, List.drop_zero, List.take_succ_cons, List.take_zero]
  after_results_simp

theorem fill3 (G : Valuation τ sig (Elt Ideal)) :
    StableHlo.after fillOps3 G (Proc.devRef .tc main_v49)
      = (select (broadcastInDim S600000x128 ![0] bcast_S600000_S600000x128_0 (G (Proc.devRef .tc main_call3_v12)))
          (Host.gather gather_S50000x128_S600000x1_S600000x128_1_0_n_n_0_1_1128 (G (Proc.devRef .tc main_v48)) (G (Proc.devRef .tc main_call3_v5)))
          (broadcastInDim S600000x128 ![] bcast_S_S600000x128 (constant (F := Ideal) S_ .f32 0x7FC00000#32)) : FVec Ideal S600000x128 .f32) := by
  simp only [fillOps3, hostOps3, List.drop_succ_cons, List.drop_zero]
  after_results_simp
  simp only [TRef.ofBuf, TRef.toBuf, cast_eq]

/-- The whole lookup: the three stretches one after the other are the named term of the features and the source row. -/
theorem lookup3 (V : Valuation τ sig (Elt Ideal)) :
    StableHlo.after hostOps3 V (Proc.devRef .tc main_v49)
      = Terms.takeT (F := Ideal) (V (Proc.devRef .tc main_v48)) (V (Proc.devRef .tc main_v1)) := by
  rw [lookup3_split, StableHlo.after_append, StableHlo.after_append, fill3, test3, test3_idx, test3_feat, wrap3, wrap3_feat]
  rfl

/-- The lookup does not write the destination row. -/
theorem lookup3_dst (V : Valuation τ sig (Elt Ideal)) :
    StableHlo.after hostOps3 V (Proc.devRef .tc main_v3) = V (Proc.devRef .tc main_v3) := by
  after_results_simp

/-- The operations after the lookup add the looked-up rows up at every edge's destination node. -/
theorem scatter3 (G : Valuation τ sig (Elt Ideal)) :
    StableHlo.after hostOps3_1 G (Proc.devRef .tc main_v52) = Terms.aggT (F := Ideal) (G (Proc.devRef .tc main_v49)) (G (Proc.devRef .tc main_v3)) := by
  after_results_simp
  rfl

/-! ### What call 3 finds in the six arrays it reads, from the contents at the exit of call 2 -/

/-- The features call 3 reads are call 2's output: no host operation in between writes that array. -/
theorem entry3_feat (c : Dev nD) : W12 m ρ c (Proc.devRef .tc main_v48) = W10 m ρ c (Proc.devRef .tc main_v48) := by
  show StableHlo.after hostOps3_1 (StableHlo.after hostOps3 (W10 m ρ c)) (Proc.devRef .tc main_v48) = _
  after_results_simp

/-- The reciprocal in-degree column is not written between the two calls. -/
theorem entry3_dinv (c : Dev nD) : W12 m ρ c (Proc.devRef .tc main_v12) = W10 m ρ c (Proc.devRef .tc main_v12) := by
  show StableHlo.after hostOps3_1 (StableHlo.after hostOps3 (W10 m ρ c)) (Proc.devRef .tc main_v12) = _
  after_results_simp

/-- The neighbour weights of layer 3: slice 3 of the stacked matrices, with the unit axis dropped. -/
theorem entry3_wl (c : Dev nD) : W12 m ρ c (Proc.devRef .tc main_v54) = Terms.matT3 (F := Ideal) (W10 m ρ c (Proc.devRef .tc main_arg2)) := by
  show StableHlo.after hostOps3_1 (StableHlo.after hostOps3 (W10 m ρ c)) (Proc.devRef .tc main_v54) = _
  after_results_simp
  rfl

/-- The root weights of layer 3: slice 3 of the second stack. -/
theorem entry3_wr (c : Dev nD) : W12 m ρ c (Proc.devRef .tc main_v56) = Terms.matT3 (F := Ideal) (W10 m ρ c (Proc.devRef .tc main_arg3)) := by
  show StableHlo.after hostOps3_1 (StableHlo.after hostOps3 (W10 m ρ c)) (Proc.devRef .tc main_v56) = _
  after_results_simp
  rfl

/-- The bias of layer 3: row 3 of the stacked biases, flattened and set up again as a one-row array. -/
theorem entry3_bias (c : Dev nD) : W12 m ρ c (Proc.devRef .tc main_v59) = Terms.biasT3 (F := Ideal) (W10 m ρ c (Proc.devRef .tc main_arg4)) := by
  show StableHlo.after hostOps3_1 (StableHlo.after hostOps3 (W10 m ρ c)) (Proc.devRef .tc main_v59) = _
  after_results_simp
  rfl

/-- The neighbour sums call 3 reads: the row lookup of call 2's output at every edge's source node, then those
    rows added up at every edge's destination node. -/
theorem entry3_agg (c : Dev nD) :
    W12 m ρ c (Proc.devRef .tc main_v52)
      = Terms.aggT (F := Ideal) (Terms.takeT (F := Ideal) (W10 m ρ c (Proc.devRef .tc main_v48)) (W10 m ρ c (Proc.devRef .tc main_v1))) (W10 m ρ c (Proc.devRef .tc main_v3)) := by
  show StableHlo.after hostOps3_1 (StableHlo.after hostOps3 (W10 m ρ c)) (Proc.devRef .tc main_v52) = _
  rw [scatter3, lookup3, lookup3_dst]

/-- Layer 3, from the contents at the exit of the call before it. -/
theorem step3 (c : Dev nD) :
    W13 m ρ c (Proc.devRef .tc main_v60)
      = Cert.Sage.layer (Terms.aggT (F := Ideal) (Terms.takeT (F := Ideal) (W10 m ρ c (Proc.devRef .tc main_v48)) (W10 m ρ c (Proc.devRef .tc main_v1))) (W10 m ρ c (Proc.devRef .tc main_v3)))
          (W10 m ρ c (Proc.devRef .tc main_v48)) (W10 m ρ c (Proc.devRef .tc main_v12))
          (Terms.matT3 (F := Ideal) (W10 m ρ c (Proc.devRef .tc main_arg2))) (Terms.matT3 (F := Ideal) (W10 m ρ c (Proc.devRef .tc main_arg3))) (Terms.biasT3 (F := Ideal) (W10 m ρ c (Proc.devRef .tc main_arg4))) := by
  -- the output window's array at the exit is the region's value at its entry contents …
  refine (W13_arr m ρ c 6).trans ((Cert.KernelIdeal.RegionValue.region3_array (V12 m ρ) c).trans ?_)
  -- … and the entry contents of the six arrays it reads are the six terms above
  show Cert.Sage.layer (W12 m ρ c (Proc.devRef .tc main_v52)) (W12 m ρ c (Proc.devRef .tc main_v48)) (W12 m ρ c (Proc.devRef .tc main_v12))
      (W12 m ρ c (Proc.devRef .tc main_v54)) (W12 m ρ c (Proc.devRef .tc main_v56)) (W12 m ρ c (Proc.devRef .tc main_v59)) = _
  rw [entry3_agg m ρ c, entry3_feat m ρ c, entry3_dinv m ρ c, entry3_wl m ρ c, entry3_wr m ρ c, entry3_bias m ρ c]

/-! ## Layer 4

### The row lookup before call 4, from any contents

Its 23 operations fall into three stretches, each read on its own: the wrapped index (the first 8 operations), the
in-bounds test of that index (the next 10), and the lookup itself with the fill where the test fails (the last 5). -/

/-- The first 8 operations: the source index, 50000 added where negative, as a one-column array. -/
abbrev wrapOps4 : List (HloOp τ sig (Elt Ideal)) := hostOps4.take 8
/-- The next 10: is that index inside `[0, 49999]`? -/
abbrev testOps4 : List (HloOp τ sig (Elt Ideal)) := (hostOps4.drop 8).take 10
/-- The last 5: the looked-up rows where it is, the fill pattern elsewhere. -/
abbrev fillOps4 : List (HloOp τ sig (Elt Ideal)) := hostOps4.drop 18

theorem lookup4_split : (hostOps4 : List (HloOp τ sig (Elt Ideal))) = wrapOps4 ++ (testOps4 ++ fillOps4) := rfl

theorem wrap4 (V : Valuation τ sig (Elt Ideal)) :
    StableHlo.after wrapOps4 V (Proc.devRef .tc main_call4_v5) = Terms.wrapT (V (Proc.devRef .tc main_v1)) := by
  simp only [wrapOps4, hostOps4, List.take_succ_cons, List.take_zero]
  after_results_simp
  simp only [TRef.ofBuf, TRef.toBuf, cast_eq]
  rfl

/-- The first stretch writes only its own temporaries: the features pass. -/
theorem wrap4_feat (V : Valuation τ sig (Elt Ideal)) :
    StableHlo.after wrapOps4 V (Proc.devRef .tc main_v60) = V (Proc.devRef .tc main_v60) := by
  simp only [wrapOps4, hostOps4, List.take_succ_cons, List.take_zero]
  after_results_simp

theorem test4 (G : Valuation τ sig (Elt Ideal)) :
    StableHlo.after testOps4 G (Proc.devRef .tc main_call4_v12) = Terms.inBoundsT (G (Proc.devRef .tc main_call4_v5)) := by
  simp only [testOps4, hostOps4, List.drop_succ_cons, List.drop_zero, List.take_succ_cons, List.take_zero]
  after_results_simp
  simp only [TRef.ofBuf, TRef.toBuf, cast_eq]
  rfl

/-- The second stretch leaves the wrapped index … -/
theorem test4_idx (G : Valuation τ sig (Elt Ideal)) :
    StableHlo.after testOps4 G (Proc.devRef .tc main_call4_v5) = G (Proc.devRef .tc main_call4_v5) := by
  simp only [testOps4, hostOps4, List.drop_succ_cons, List.drop_zero, List.take_succ_cons, List.take_zero]
  after_results_simp

/-- … and the features as they were. -/
theorem test4_feat (G : Valuation τ sig (Elt Ideal)) :
    StableHlo.after testOps4 G (Proc.devRef .tc main_v60) = G (Proc.devRef .tc main_v60) := by
  simp only [testOps4, hostOps4, List.drop_succ_cons, List.drop_zero, List.take_succ_cons, List.take_zero]
  after_results_simp

theorem fill4 (G : Valuation τ sig (Elt Ideal)) :
    StableHlo.after fillOps4 G (Proc.devRef .tc main_v61)
      = (select (broadcastInDim S600000x128 ![0] bcast_S600000_S600000x128_0 (G (Proc.devRef .tc main_call4_v12)))
          (Host.gather gather_S50000x128_S600000x1_S600000x128_1_0_n_n_0_1_1128 (G (Proc.devRef .tc main_v60)) (G (Proc.devRef .tc main_call4_v5)))
          (broadcastInDim S600000x128 ![] bcast_S_S600000x128 (constant (F := Ideal) S_ .f32 0x7FC00000#32)) : FVec Ideal S600000x128 .f32) := by
  simp only [fillOps4, hostOps4, List.drop_succ_cons, List.drop_zero]
  after_results_simp
  simp only [TRef.ofBuf, TRef.toBuf, cast_eq]

/-- The whole lookup: the three stretches one after the other are the named term of the features and the source row. -/
theorem lookup4 (V : Valuation τ sig (Elt Ideal)) :
    StableHlo.after hostOps4 V (Proc.devRef .tc main_v61)
      = Terms.takeT (F := Ideal) (V (Proc.devRef .tc main_v60)) (V (Proc.devRef .tc main_v1)) := by
  rw [lookup4_split, StableHlo.after_append, StableHlo.after_append, fill4, test4, test4_idx, test4_feat, wrap4, wrap4_feat]
  rfl

/-- The lookup does not write the destination row. -/
theorem lookup4_dst (V : Valuation τ sig (Elt Ideal)) :
    StableHlo.after hostOps4 V (Proc.devRef .tc main_v3) = V (Proc.devRef .tc main_v3) := by
  after_results_simp

/-- The operations after the lookup add the looked-up rows up at every edge's destination node. -/
theorem scatter4 (G : Valuation τ sig (Elt Ideal)) :
    StableHlo.after hostOps4_1 G (Proc.devRef .tc main_v64) = Terms.aggT (F := Ideal) (G (Proc.devRef .tc main_v61)) (G (Proc.devRef .tc main_v3)) := by
  after_results_simp
  rfl

/-! ### What call 4 finds in the six arrays it reads, from the contents at the exit of call 3 -/

/-- The features call 4 reads are call 3's output: no host operation in between writes that array. -/
theorem entry4_feat (c : Dev nD) : W15 m ρ c (Proc.devRef .tc main_v60) = W13 m ρ c (Proc.devRef .tc main_v60) := by
  show StableHlo.after hostOps4_1 (StableHlo.after hostOps4 (W13 m ρ c)) (Proc.devRef .tc main_v60) = _
  after_results_simp

/-- The reciprocal in-degree column is not written between the two calls. -/
theorem entry4_dinv (c : Dev nD) : W15 m ρ c (Proc.devRef .tc main_v12) = W13 m ρ c (Proc.devRef .tc main_v12) := by
  show StableHlo.after hostOps4_1 (StableHlo.after hostOps4 (W13 m ρ c)) (Proc.devRef .tc main_v12) = _
  after_results_simp

/-- The neighbour weights of layer 4: slice 4 of the stacked matrices, with the unit axis dropped. -/
theorem entry4_wl (c : Dev nD) : W15 m ρ c (Proc.devRef .tc main_v66) = Terms.matT4 (F := Ideal) (W13 m ρ c (Proc.devRef .tc main_arg2)) := by
  show StableHlo.after hostOps4_1 (StableHlo.after hostOps4 (W13 m ρ c)) (Proc.devRef .tc main_v66) = _
  after_results_simp
  rfl

/-- The root weights of layer 4: slice 4 of the second stack. -/
theorem entry4_wr (c : Dev nD) : W15 m ρ c (Proc.devRef .tc main_v68) = Terms.matT4 (F := Ideal) (W13 m ρ c (Proc.devRef .tc main_arg3)) := by
  show StableHlo.after hostOps4_1 (StableHlo.after hostOps4 (W13 m ρ c)) (Proc.devRef .tc main_v68) = _
  after_results_simp
  rfl

/-- The bias of layer 4: row 4 of the stacked biases, flattened and set up again as a one-row array. -/
theorem entry4_bias (c : Dev nD) : W15 m ρ c (Proc.devRef .tc main_v71) = Terms.biasT4 (F := Ideal) (W13 m ρ c (Proc.devRef .tc main_arg4)) := by
  show StableHlo.after hostOps4_1 (StableHlo.after hostOps4 (W13 m ρ c)) (Proc.devRef .tc main_v71) = _
  after_results_simp
  rfl

/-- The neighbour sums call 4 reads: the row lookup of call 3's output at every edge's source node, then those
    rows added up at every edge's destination node. -/
theorem entry4_agg (c : Dev nD) :
    W15 m ρ c (Proc.devRef .tc main_v64)
      = Terms.aggT (F := Ideal) (Terms.takeT (F := Ideal) (W13 m ρ c (Proc.devRef .tc main_v60)) (W13 m ρ c (Proc.devRef .tc main_v1))) (W13 m ρ c (Proc.devRef .tc main_v3)) := by
  show StableHlo.after hostOps4_1 (StableHlo.after hostOps4 (W13 m ρ c)) (Proc.devRef .tc main_v64) = _
  rw [scatter4, lookup4, lookup4_dst]

/-- Layer 4, from the contents at the exit of the call before it. -/
theorem step4 (c : Dev nD) :
    W16 m ρ c (Proc.devRef .tc main_v72)
      = Cert.Sage.layer (Terms.aggT (F := Ideal) (Terms.takeT (F := Ideal) (W13 m ρ c (Proc.devRef .tc main_v60)) (W13 m ρ c (Proc.devRef .tc main_v1))) (W13 m ρ c (Proc.devRef .tc main_v3)))
          (W13 m ρ c (Proc.devRef .tc main_v60)) (W13 m ρ c (Proc.devRef .tc main_v12))
          (Terms.matT4 (F := Ideal) (W13 m ρ c (Proc.devRef .tc main_arg2))) (Terms.matT4 (F := Ideal) (W13 m ρ c (Proc.devRef .tc main_arg3))) (Terms.biasT4 (F := Ideal) (W13 m ρ c (Proc.devRef .tc main_arg4))) := by
  -- the output window's array at the exit is the region's value at its entry contents …
  refine (W16_arr m ρ c 6).trans ((Cert.KernelIdeal.RegionValue.region4_array (V15 m ρ) c).trans ?_)
  -- … and the entry contents of the six arrays it reads are the six terms above
  show Cert.Sage.layer (W15 m ρ c (Proc.devRef .tc main_v64)) (W15 m ρ c (Proc.devRef .tc main_v60)) (W15 m ρ c (Proc.devRef .tc main_v12))
      (W15 m ρ c (Proc.devRef .tc main_v66)) (W15 m ρ c (Proc.devRef .tc main_v68)) (W15 m ρ c (Proc.devRef .tc main_v71)) = _
  rw [entry4_agg m ρ c, entry4_feat m ρ c, entry4_dinv m ρ c, entry4_wl m ρ c, entry4_wr m ρ c, entry4_bias m ρ c]

end Cert.KernelIdeal.Chain

end
-- ==== Proof.RegionLayer0.lean ====
/-
  Graph-convolution call 0, read as a whole array: after its ten row tiles have been written back, the output
  array holds the layer function of the six arrays the call reads, index by index.

  A row tile is 5000 rows. At row `p`, column `q` of a tile the body's result is the rectified sum
  max ((Σ_k (a p k · d p) · wl k q + Σ_k h p k · wr k q) + b q) 0 of the tile's rows of the neighbour sums `a`, the
  features `h` and the reciprocal degrees `d`, and of the whole weight matrices and bias row. Grid point `t` holds
  rows 5000·t … 5000·t + 4999 of the three row-tiled arrays and writes the same rows of the output, so what it
  writes is the layer function read through its block; the ten blocks cover the 50000 rows.
-/
import proofs.«407880_j40888088658252_2_alg».proof.Proof.Gen.KernelIdeal.Frame
import proofs.«407880_j40888088658252_2_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

namespace Layer0

/-! ## The block product read at an index -/

/-- The left operand's index at output index `i` and contraction index `s`: its row is the output's row. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its column is the contraction index. -/
theorem lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- The right operand's row is the contraction index. -/
theorem rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- … and its column is the output's column. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row tile times a weight matrix, accumulated into zero, at row `p` and column `q`: the sum over the 128
    shared coordinates of the products. -/
theorem tile_matmul_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two broadcasts read at an index -/

/-- A column [5000,1] spread over 128 columns, at row `p`: the column's entry at `p`. -/
theorem column_broadcast_apply (d : FVec Ideal S5000x1 .f32) (p : Fin 5000) (q : Fin 128) :
    broadcastTo S5000x128 d broadcasts_S5000x1_S5000x128 (ix2 p q) = d (ix2 p (0 : Fin 1)) := by
  refine broadcastTo_apply d _ (ix2 p q) (ix2 p (0 : Fin 1)) fun a => ?_
  match a with
  | ⟨0, _⟩ => rfl
  | ⟨1, _⟩ => rfl

/-- A row [1,128] spread over 5000 rows, at column `q`: the row's entry at `q`. -/
theorem row_broadcast_apply (b : FVec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) fun a => ?_
  match a with
  | ⟨0, _⟩ => rfl
  | ⟨1, _⟩ => rfl

/-! ## The payload at an index -/

/-- One row tile of the layer: at row `p` and column `q` of the tile, the rectified sum of the normalised neighbour
    row through `wl`, the node's own row through `wr`, and the bias. (The shape casts in the body are between equal
    shapes: identities.) -/
theorem tile_apply (a : Vec Ideal S5000x128 .f32) (d : Vec Ideal S5000x1 .f32) (h : Vec Ideal S5000x128 .f32)
    (wl wr : Vec Ideal S128x128 .f32) (b : Vec Ideal S1x128 .f32) (p : Fin 5000) (q : Fin 128) :
    k0_pay1 (F := Ideal) a d h wl wr b (ix2 p q)
      = max (((∑ k : Fin 128, (a (ix2 p k) * d (ix2 p (0 : Fin 1))) * wl (ix2 k q))
              + (∑ k : Fin 128, h (ix2 p k) * wr (ix2 k q)))
             + b (ix2 (0 : Fin 1) q)) 0 := by
  unfold k0_pay1
  simp only [shapeCast_self]
  rw [maximumf_apply, addf_apply, addf_apply, tile_matmul_apply, tile_matmul_apply, row_broadcast_apply, broadcast_apply]
  simp only [mulf_apply, column_broadcast_apply]
  rw [show (Scalar.ofBits (F := Ideal) .f32 0x00000000#32 : EReal) = 0 from Ideal.ofBits_zero_f32]

/-! ## The blocks of a grid point -/

theorem zero_offsets : (![0, 0] : Fin 2 → Nat) = fun _ => 0 := funext fun a => by fin_cases a <;> rfl

/-- The printed index maps, decided over the ten grid points: the three row-tiled inputs and the output sit at
    block row `t`, block column 0; the two weight matrices and the bias row at block (0, 0) at every point. -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- A grid point is one of ten. -/
theorem point_lt (t : Fin cfg0.N) : t.val < 10 := lt_of_lt_of_eq t.isLt N_0

/-- Row `p` of grid point `t`'s tile is row `5000 t + p` of the array. -/
def rowOf (t : Fin cfg0.N) (p : Fin 5000) : Fin 50000 :=
  ⟨t.val * 5000 + p.val, by have := point_lt t; have := p.isLt; omega⟩

/-- The neighbour sums' block at point `t`: rows `5000 t …` of the array. -/
theorem agg_block_apply (c : Dev nD) (t : Fin cfg0.N) (p : Fin 5000) (k : Fin 128) :
    (iblk0 (F := Ideal) V c 0 t : Vec Ideal S5000x128 .f32) (ix2 p k)
      = (V c main_v16 : S50000x128.Idx → EReal) (ix2 (rowOf t p) k) := by
  obtain ⟨⟨e0, e1⟩, -⟩ := index_maps t
  unfold iblk0
  rw [View.read_apply]
  show V c main_v16 _ = V c main_v16 _
  refine congrArg (V c main_v16) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The features' block at point `t`: the same rows. -/
theorem feat_block_apply (c : Dev nD) (t : Fin cfg0.N) (p : Fin 5000) (k : Fin 128) :
    (iblk0 (F := Ideal) V c 1 t : Vec Ideal S5000x128 .f32) (ix2 p k)
      = (V c main_arg0 : S50000x128.Idx → EReal) (ix2 (rowOf t p) k) := by
  obtain ⟨-, ⟨e0, e1⟩, -⟩ := index_maps t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The reciprocal degrees' block at point `t`: the same rows of the one column. -/
theorem deg_block_apply (c : Dev nD) (t : Fin cfg0.N) (p : Fin 5000) :
    (iblk0 (F := Ideal) V c 2 t : Vec Ideal S5000x1 .f32) (ix2 p (0 : Fin 1))
      = (V c main_v12 : S50000x1.Idx → EReal) (ix2 (rowOf t p) (0 : Fin 1)) := by
  obtain ⟨-, -, ⟨e0, e1⟩, -⟩ := index_maps t
  unfold iblk0
  rw [View.read_apply]
  show V c main_v12 _ = V c main_v12 _
  refine congrArg (V c main_v12) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The neighbour weights' block at every point: the whole matrix. -/
theorem wl_block_apply (c : Dev nD) (t : Fin cfg0.N) (k : Fin 128) (q : Fin 128) :
    (iblk0 (F := Ideal) V c 3 t : Vec Ideal S128x128 .f32) (ix2 k q)
      = (V c main_v18 : S128x128.Idx → EReal) (ix2 k q) := by
  obtain ⟨-, -, -, ⟨e0, e1⟩, -⟩ := index_maps t
  unfold iblk0
  rw [View.read_apply]
  show V c main_v18 _ = V c main_v18 _
  refine congrArg (V c main_v18) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The root weights' block at every point: the whole matrix. -/
theorem wr_block_apply (c : Dev nD) (t : Fin cfg0.N) (k : Fin 128) (q : Fin 128) :
    (iblk0 (F := Ideal) V c 4 t : Vec Ideal S128x128 .f32) (ix2 k q)
      = (V c main_v20 : S128x128.Idx → EReal) (ix2 k q) := by
  obtain ⟨-, -, -, -, ⟨e0, e1⟩, -⟩ := index_maps t
  unfold iblk0
  rw [View.read_apply]
  show V c main_v20 _ = V c main_v20 _
  refine congrArg (V c main_v20) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias row's block at every point: the whole row. -/
theorem bias_block_apply (c : Dev nD) (t : Fin cfg0.N) (q : Fin 128) :
    (iblk0 (F := Ideal) V c 5 t : Vec Ideal S1x128 .f32) (ix2 (0 : Fin 1) q)
      = (V c main_v23 : S1x128.Idx → EReal) (ix2 (0 : Fin 1) q) := by
  obtain ⟨-, -, -, -, -, ⟨e0, e1⟩, -⟩ := index_maps t
  unfold iblk0
  rw [View.read_apply]
  show V c main_v23 _ = V c main_v23 _
  refine congrArg (V c main_v23) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- Where the output's block at point `t` puts its row `p`, column `q`. -/
theorem out_block_emb (t : Fin cfg0.N) (p : Fin 5000) (q : Fin 128) :
    ((cfg0.win 6).blk t).view.emb (ix2 p q) = (ix2 (rowOf t p) q : S50000x128.Idx) := by
  obtain ⟨-, -, -, -, -, -, ⟨e0, e1⟩⟩ := index_maps t
  refine funext fun a => Fin.ext ?_
  match a with
  | ⟨0, _⟩ => show win0_6.index t (0 : Fin 2) * 5000 + 1 * p.val = t.val * 5000 + p.val; rw [e0]; omega
  | ⟨1, _⟩ => show win0_6.index t (1 : Fin 2) * 128 + 1 * q.val = q.val; rw [e1]; omega

/-! ## What a grid point writes back -/

/-- WHAT POINT `t` WRITES BACK is block `t` of the layer function of the six arrays as the call finds them. -/
theorem flushed_eq (c : Dev nD) (t : Fin cfg0.N) :
    (dat0 (F := Ideal) V c).flushed 6 t
      = ((cfg0.win 6).blk t).view.read (Elt Ideal)
          (Cert.Sage.layer (V c main_v16) (V c main_arg0) (V c main_v12) (V c main_v18) (V c main_v20) (V c main_v23)) := by
  show (cfg0.win 6).cut (grid0.coords t) ((dat0 (F := Ideal) V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  rw [View.read_apply, out_block_emb, Cert.Sage.layer_apply]
  refine (tile_apply _ _ _ _ _ _ p q).trans ?_
  unfold Cert.Sage.preact
  simp only [agg_block_apply, feat_block_apply, deg_block_apply, wl_block_apply, wr_block_apply, bias_block_apply]
  rfl

/-! ## The ten blocks cover the array -/

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- Row `r` is in the block of point `r / 5000`. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  have ht : t.val = (i 0).val / 5000 := rfl
  obtain ⟨-, -, -, -, -, -, ⟨e0, e1⟩⟩ := index_maps t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 128 ≤ (i 1).val ∧ (i 1).val < win0_6.index t (1 : Fin 2) * 128 + 128; rw [e1]; omega

end Layer0

/-- The output array of call 0, after the run of its grid, is one layer of the six arrays it reads (as the
    call finds them): neighbour sums, features, reciprocal degrees, the two weight matrices and the bias row. -/
theorem region0_array (c : Dev nD) :
    (dat0 (F := Ideal) V c).arrAt 6 cfg0.N
      = Cert.Sage.layer (V c main_v16) (V c main_arg0) (V c main_v12) (V c main_v18) (V c main_v20) (V c main_v23) :=
  (dat0 (F := Ideal) V c).arrAt_eq_of_cover 6 _ (fun t _ => Layer0.flushed_eq V c t) Layer0.covered

end Cert.KernelIdeal.RegionValue

end
-- ==== Proof.RegionHead5.lean ====
/-
  The last call (graph convolution followed by the linear head), read as a whole array: after its ten row tiles
  have been written back, the output array holds the head function of the eight arrays the call reads, index by index.

  First one entry of what the body stores, from the eight blocks it loads: the three matrix products as sums over the
  shared axis, the reciprocal-degree column and the two bias rows read where they are stretched, the rectifier as a
  maximum with zero. Then the grid: at point `t` the row-block windows hold rows `5000 t … 5000 t + 4999` and the
  weight and bias windows hold their whole arrays, so the stored tile is those rows of the head; row `r` of the output
  lies in the tile of point `r / 5000`, so the ten tiles cover the output.
-/
import proofs.«407880_j40888088658252_2_alg».proof.Proof.Gen.KernelIdeal.Frame
import proofs.«407880_j40888088658252_2_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

/-! ## The matrix products of the body, read at one entry

Both contract the left operand's columns against the right operand's rows, so an entry of the product is the sum over
the shared axis of the products of the two factors; the accumulator is the zero splat. -/

theorem lhs_hid_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_hid_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_hid_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_hid_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row tile times a square weight matrix, at row `p` and column `q`. -/
theorem matmul_hid_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_hid_0 _ _).trans hk
    | ⟨1, _⟩ => exact rhs_hid_1 _ _)
  rw [el, er]

theorem lhs_out_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_out_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_out_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_out_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A row tile times the head's weight matrix, at row `p` and class `q`. -/
theorem matmul_out_apply (x : FVec Ideal S5000x128 .f32) (w : FVec Ideal S128x2 .f32) (p : Fin 5000) (q : Fin 2) :
    matmul dot_S5000x128_S128x2_S5000x2_1_0_0_1_n_n none x w (constant (F := Ideal) S5000x2 .f32 0x00000000#32) (ix2 p q)
      = ∑ k : Fin 128, x (ix2 p k) * w (ix2 k q) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! ## The broadcasts of the body, read at one entry -/

/-- The reciprocal-degree column stretched along the feature axis: every entry of row `p` is the column's entry of
    row `p`. -/
theorem broadcast_col_apply (x : S5000x1.Idx → EReal) (p : Fin 5000) (q : Fin 128) :
    broadcastTo S5000x128 x broadcasts_S5000x1_S5000x128 (ix2 p q) = x (ix2 p (0 : Fin 1)) :=
  broadcastTo_apply x _ (ix2 p q) (ix2 p (0 : Fin 1)) (fun a => by
    match a with
    | ⟨0, _⟩ => rfl
    | ⟨1, _⟩ => rfl)

/-- The hidden bias row stretched along the rows: every entry of column `q` is the row's entry of column `q`. -/
theorem broadcast_row_apply (x : S1x128.Idx → EReal) (p : Fin 5000) (q : Fin 128) :
    broadcastTo S5000x128 x broadcasts_S1x128_S5000x128 (ix2 p q) = x (ix2 (0 : Fin 1) q) :=
  broadcastTo_apply x _ (ix2 p q) (ix2 (0 : Fin 1) q) (fun a => by
    match a with
    | ⟨0, _⟩ => rfl
    | ⟨1, _⟩ => rfl)

/-- The head's bias row stretched along the rows. -/
theorem broadcast_row_out_apply (x : S1x2.Idx → EReal) (p : Fin 5000) (q : Fin 2) :
    broadcastTo S5000x2 x broadcasts_S1x2_S5000x2 (ix2 p q) = x (ix2 (0 : Fin 1) q) :=
  broadcastTo_apply x _ (ix2 p q) (ix2 (0 : Fin 1) q) (fun a => by
    match a with
    | ⟨0, _⟩ => rfl
    | ⟨1, _⟩ => rfl)

/-! ## The body's payload at one entry -/

/-- What the body stores at row `p`, class `o` of its tile, from the eight blocks it loads: the rectified hidden row
    of the tile's row `p` through the head's weights, plus the head's bias. -/
theorem pay_apply (x0 x1 : Vec Ideal S5000x128 .f32) (x2 : Vec Ideal S5000x1 .f32) (w3 w4 : Vec Ideal S128x128 .f32)
    (b5 : Vec Ideal S1x128 .f32) (w6 : Vec Ideal S128x2 .f32) (b7 : Vec Ideal S1x2 .f32) (p : Fin 5000) (o : Fin 2) :
    k5_pay1 (F := Ideal) x0 x2 x1 w3 w4 b5 w6 b7 (ix2 p o)
      = (∑ k : Fin 128, max (((∑ l : Fin 128, (x0 (ix2 p l) * x2 (ix2 p (0 : Fin 1))) * w3 (ix2 l k))
            + (∑ l : Fin 128, x1 (ix2 p l) * w4 (ix2 l k))) + b5 (ix2 (0 : Fin 1) k)) 0 * w6 (ix2 k o))
          + b7 (ix2 (0 : Fin 1) o) := by
  unfold k5_pay1
  simp only [shapeCast_self]
  rw [addf_apply, matmul_out_apply, broadcast_row_out_apply]
  refine congrArg (· + b7 (ix2 (0 : Fin 1) o)) (Finset.sum_congr rfl fun k _ => ?_)
  rw [maximumf_apply, addf_apply, addf_apply, matmul_hid_apply, matmul_hid_apply, broadcast_row_apply, broadcast_apply,
    (show FloatOps.ofBits (F := Ideal) .f32 0x00000000#32 = (0 : EReal) from Ideal.ofBits_zero_f32)]
  refine congrArg (fun s => max ((s + _) + _) 0 * _) (Finset.sum_congr rfl fun l _ => ?_)
  rw [mulf_apply, broadcast_col_apply]

variable (V : (c : Dev nD) → (b : Ref sig .tc) → Buf (Elt Ideal) ((c : Thread nD τ).loc b))

/-! ## One tile of the call is one tile of the head -/

/-- If the loaded row blocks hold row `r` of the arrays at the tile's row `p`, and the weight and bias blocks are the
    whole arrays, then the stored tile's row `p` is the head's row `r`. -/
theorem tile_row_eq (a h : Cert.Sage.SNxD.Idx → EReal) (d : Cert.Sage.SNx1.Idx → EReal) (wl wr : Cert.Sage.SDxD.Idx → EReal)
    (b : Cert.Sage.S1xD.Idx → EReal) (fw : Cert.Sage.SDxO.Idx → EReal) (fb : Cert.Sage.S1xO.Idx → EReal)
    (x0 x1 : Vec Ideal S5000x128 .f32) (x2 : Vec Ideal S5000x1 .f32) (w3 w4 : Vec Ideal S128x128 .f32)
    (b5 : Vec Ideal S1x128 .f32) (w6 : Vec Ideal S128x2 .f32) (b7 : Vec Ideal S1x2 .f32) (r : Fin 50000) (p : Fin 5000)
    (h0 : ∀ l : Fin 128, x0 (ix2 p l) = a (ix2 r l)) (h1 : ∀ l : Fin 128, x1 (ix2 p l) = h (ix2 r l))
    (h2 : ∀ l : Fin 1, x2 (ix2 p l) = d (ix2 r l))
    (h3 : w3 = wl) (h4 : w4 = wr) (h5 : b5 = b) (h6 : w6 = fw) (h7 : b7 = fb) (o : Fin 2) :
    k5_pay1 (F := Ideal) x0 x2 x1 w3 w4 b5 w6 b7 (ix2 p o) = Cert.Sage.head a h d wl wr b fw fb (ix2 r o) := by
  subst h3 h4 h5 h6 h7
  rw [pay_apply, Cert.Sage.head_apply]
  simp only [Cert.Sage.preact, h0, h1, h2]

/-! ## The grid: where each window's block sits at each of the ten points -/

theorem hz : (![0, 0] : Fin 2 → Nat) = fun _ => 0 := funext fun a => by
  match a with
  | ⟨0, _⟩ => rfl
  | ⟨1, _⟩ => rfl

/-- The row-block windows (summed neighbours, features, reciprocal degree, output) sit at row block `t` at point `t`;
    the weights and biases sit at their one block at every point. -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = t.val ∧ win5_8.index t (1 : Fin 2) = 0) :=
  (by decide +kernel : ∀ t : Fin grid5.N, _)

/-! ## What each point writes back -/

/-- Point `t` writes back rows `5000 t … 5000 t + 4999` of the head of the arrays the call reads. -/
theorem flushed_eq (c : Dev nD) (t : Fin cfg5.N) :
    (dat5 (F := Ideal) V c).flushed 8 t
      = ((cfg5.win 8).blk t).view.read (Elt Ideal) (Cert.Sage.head (V c main_v76) (V c main_v72) (V c main_v12) (V c main_v78) (V c main_v80) (V c main_v83) (V c main_arg5) (V c main_v84)) := by
  show (cfg5.win 8).cut (grid5.coords t) ((dat5 (F := Ideal) V c).after 8 t) = _
  rw [after5_8]
  unfold out5_8
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x2) hz, View.ld_unit_zero (S := S1x2) hz]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩⟩ := idx_facts t
  have ht : t.val < 10 := lt_of_lt_of_eq t.isLt N_5
  refine funext fun (j : S5000x2.Idx) => ?_
  obtain ⟨p, o, rfl⟩ : ∃ (p : Fin 5000) (o : Fin 2), j = ix2 p o := ⟨j 0, j 1, eq_ix2 j⟩
  have hp : p.val < 5000 := p.isLt
  obtain ⟨r, hr⟩ : ∃ r : Fin 50000, r.val = t.val * 5000 + p.val := ⟨⟨t.val * 5000 + p.val, by omega⟩, rfl⟩
  have he : (((cfg5.win 8).blk t).view.emb (ix2 p o) : Cert.Sage.SNxO.Idx) = ix2 r o := by
    funext a
    apply Fin.ext
    match a with
    | ⟨0, _⟩ => show win5_8.index t (0 : Fin 2) * 5000 + 1 * p.val = r.val; omega
    | ⟨1, _⟩ => show win5_8.index t (1 : Fin 2) * 2 + 1 * o.val = o.val; omega

  have h0 : ∀ l : Fin 128, (iblk5 V c 0 t : Vec Ideal S5000x128 .f32) (ix2 p l) = (V c main_v76 : Cert.Sage.SNxD.Idx → EReal) (ix2 r l) := by
    intro l
    show V c main_v76 (((cfg5.win 0).blk t).view.emb (ix2 p l)) = V c main_v76 (ix2 r l)
    refine congrArg (V c main_v76) (funext fun a => Fin.ext ?_)
    match a with
    | ⟨0, _⟩ => show win5_0.index t (0 : Fin 2) * 5000 + 1 * p.val = r.val; omega
    | ⟨1, _⟩ => show win5_0.index t (1 : Fin 2) * 128 + 1 * l.val = l.val; omega

  have h1 : ∀ l : Fin 128, (iblk5 V c 1 t : Vec Ideal S5000x128 .f32) (ix2 p l) = (V c main_v72 : Cert.Sage.SNxD.Idx → EReal) (ix2 r l) := by
    intro l
    show V c main_v72 (((cfg5.win 1).blk t).view.emb (ix2 p l)) = V c main_v72 (ix2 r l)
    refine congrArg (V c main_v72) (funext fun a => Fin.ext ?_)
    match a with
    | ⟨0, _⟩ => show win5_1.index t (0 : Fin 2) * 5000 + 1 * p.val = r.val; omega
    | ⟨1, _⟩ => show win5_1.index t (1 : Fin 2) * 128 + 1 * l.val = l.val; omega

  have h2 : ∀ l : Fin 1, (iblk5 V c 2 t : Vec Ideal S5000x1 .f32) (ix2 p l) = (V c main_v12 : Cert.Sage.SNx1.Idx → EReal) (ix2 r l) := by
    intro l
    show V c main_v12 (((cfg5.win 2).blk t).view.emb (ix2 p l)) = V c main_v12 (ix2 r l)
    refine congrArg (V c main_v12) (funext fun a => Fin.ext ?_)
    match a with
    | ⟨0, _⟩ => show win5_2.index t (0 : Fin 2) * 5000 + 1 * p.val = r.val; omega
    | ⟨1, _⟩ => show win5_2.index t (1 : Fin 2) * 1 + 1 * l.val = l.val; omega

  have h3 : (iblk5 V c 3 t : Vec Ideal S128x128 .f32) = (V c main_v78 : Cert.Sage.SDxD.Idx → EReal) := by
    funext y
    show V c main_v78 (((cfg5.win 3).blk t).view.emb y) = V c main_v78 y
    refine congrArg (V c main_v78) (funext fun a => Fin.ext ?_)
    match a with
    | ⟨0, _⟩ => show win5_3.index t (0 : Fin 2) * 128 + 1 * (y 0).val = (y 0).val; omega
    | ⟨1, _⟩ => show win5_3.index t (1 : Fin 2) * 128 + 1 * (y 1).val = (y 1).val; omega

  have h4 : (iblk5 V c 4 t : Vec Ideal S128x128 .f32) = (V c main_v80 : Cert.Sage.SDxD.Idx → EReal) := by
    funext y
    show V c main_v80 (((cfg5.win 4).blk t).view.emb y) = V c main_v80 y
    refine congrArg (V c main_v80) (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega

  have h5 : (iblk5 V c 5 t : Vec Ideal S1x128 .f32) = (V c main_v83 : Cert.Sage.S1xD.Idx → EReal) := by
    funext y
    show V c main_v83 (((cfg5.win 5).blk t).view.emb y) = V c main_v83 y
    refine congrArg (V c main_v83) (funext fun a => Fin.ext ?_)
    match a with
    | ⟨0, _⟩ => show win5_5.index t (0 : Fin 2) * 1 + 1 * (y 0).val = (y 0).val; omega
    | ⟨1, _⟩ => show win5_5.index t (1 : Fin 2) * 128 + 1 * (y 1).val = (y 1).val; omega

  have h6 : (iblk5 V c 6 t : Vec Ideal S128x2 .f32) = (V c main_arg5 : Cert.Sage.SDxO.Idx → EReal) := by
    funext y
    show V c main_arg5 (((cfg5.win 6).blk t).view.emb y) = V c main_arg5 y
    refine congrArg (V c main_arg5) (funext fun a => Fin.ext ?_)
    match a with
    | ⟨0, _⟩ => show win5_6.index t (0 : Fin 2) * 128 + 1 * (y 0).val = (y 0).val; omega
    | ⟨1, _⟩ => show win5_6.index t (1 : Fin 2) * 2 + 1 * (y 1).val = (y 1).val; omega

  have h7 : (iblk5 V c 7 t : Vec Ideal S1x2 .f32) = (V c main_v84 : Cert.Sage.S1xO.Idx → EReal) := by
    funext y
    show V c main_v84 (((cfg5.win 7).blk t).view.emb y) = V c main_v84 y
    refine congrArg (V c main_v84) (funext fun a => Fin.ext ?_)
    match a with
    | ⟨0, _⟩ => show win5_7.index t (0 : Fin 2) * 1 + 1 * (y 0).val = (y 0).val; omega
    | ⟨1, _⟩ => show win5_7.index t (1 : Fin 2) * 2 + 1 * (y 1).val = (y 1).val; omega
  show k5_pay1 (F := Ideal) (iblk5 V c 0 t) (iblk5 V c 2 t) (iblk5 V c 1 t) (iblk5 V c 3 t) (iblk5 V c 4 t) (iblk5 V c 5 t)
      (iblk5 V c 6 t) (iblk5 V c 7 t) (ix2 p o)
    = Cert.Sage.head (V c main_v76) (V c main_v72) (V c main_v12) (V c main_v78) (V c main_v80) (V c main_v83) (V c main_arg5) (V c main_v84) (((cfg5.win 8).blk t).view.emb (ix2 p o))
  exact (tile_row_eq _ _ _ _ _ _ _ _ _ _ _ _ _ _ _ _ r p h0 h1 h2 h3 h4 h5 h6 h7 o).trans
    (congrArg (Cert.Sage.head (V c main_v76) (V c main_v72) (V c main_v12) (V c main_v78) (V c main_v80) (V c main_v83) (V c main_arg5) (V c main_v84)) he.symm)

/-! ## The ten row tiles cover the output -/

/-- An index of the output is in point `t`'s block iff each coordinate is in the block's range on its axis. -/
theorem mem_blk (t : Fin cfg5.N) (i : S50000x2.Idx) :
    i ∈ ((cfg5.win 8).blk t).view.set
      ↔ ∀ a : Fin 2, win5_8.index t a * S5000x2.size a ≤ (i a).val ∧ (i a).val < win5_8.index t a * S5000x2.size a + S5000x2.size a := by
  show i ∈ ((View.whole main_v85).slice (win5_8.rect t)).set ↔ _
  rw [View.set_slice_whole, Rect.mem_set_unit]
  exact Iff.rfl

/-- Row `r` of the output is written back by point `r / 5000`. -/
theorem covered (i : S50000x2.Idx) :
    ∃ t : Fin cfg5.N, (cfg5.win 8).flush t = true ∧ i ∈ ((cfg5.win 8).blk t).view.set := by
  have hi0 : (i 0).val < 50000 := (i 0).isLt
  have hi1 : (i 1).val < 2 := (i 1).isLt
  obtain ⟨t, ht⟩ : ∃ t : Fin cfg5.N, t.val = (i 0).val / 5000 :=
    ⟨⟨(i 0).val / 5000, lt_of_lt_of_eq (by omega : (i 0).val / 5000 < 10) N_5.symm⟩, rfl⟩
  obtain ⟨-, -, -, -, -, -, -, -, ⟨e80, e81⟩⟩ := idx_facts t
  refine ⟨t, flush5_8 t, ?_⟩
  rw [mem_blk]
  intro a
  match a with
  | ⟨0, _⟩ => show win5_8.index t (0 : Fin 2) * 5000 ≤ (i 0).val ∧ (i 0).val < win5_8.index t (0 : Fin 2) * 5000 + 5000; omega
  | ⟨1, _⟩ => show win5_8.index t (1 : Fin 2) * 2 ≤ (i 1).val ∧ (i 1).val < win5_8.index t (1 : Fin 2) * 2 + 2; omega

/-- The output array of the last call, after the run of its grid, is the head applied to the last layer of the eight
    arrays it reads (as the call finds them). -/
theorem region5_array (c : Dev nD) :
    (dat5 (F := Ideal) V c).arrAt 8 cfg5.N
      = Cert.Sage.head (V c main_v76) (V c main_v72) (V c main_v12) (V c main_v78) (V c main_v80) (V c main_v83)
          (V c main_arg5) (V c main_v84) :=
  (dat5 (F := Ideal) V c).arrAt_eq_of_cover 8 _ (fun t _ => flushed_eq V c t) covered

end Cert.KernelIdeal.RegionValue

end
-- ==== Proof.LayerEnds.lean ====
/-
  The first and the last call's output arrays in terms of what their layers read. The first layer is stated from the
  launch memory: its neighbour sum is over the rows of the input features. The last call also applies the linear head;
  it is stated from the contents at the exit of the fifth call.
-/
import proofs.«407880_j40888088658252_2_alg».proof.Proof.Gen.KernelIdeal.Frame
import proofs.«407880_j40888088658252_2_alg».proof.Proof.KernelTerms
import proofs.«407880_j40888088658252_2_alg».proof.Proof.RegionLayer0
import proofs.«407880_j40888088658252_2_alg».proof.Proof.RegionHead5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first call reads, from the launch memory

Each of the six arrays the first call reads is written by the host operations before it (or is an argument none of
them writes); composing those operations' functions from the launch memory gives the array as a term of the
arguments. -/

set_option maxHeartbeats 4000000 in
/-- The first call's neighbour sums: the looked-up rows of the input features, summed over each destination node. -/
theorem entry0_agg (c : Dev nD) :
    V3 m ρ c main_v16
      = Terms.aggT (F := Ideal) (Terms.takeT (F := Ideal) (m ((c : Thread nD τ).loc main_arg0)) (Terms.srcT (m ((c : Thread nD τ).loc main_arg1)))) (Terms.dstT (m ((c : Thread nD τ).loc main_arg1))) := by
  show StableHlo.after hostOps0_2 (W2 m ρ c) (Proc.devRef .tc main_v16) = _
  after_results_simp
  simp only [TRef.ofBuf, TRef.toBuf, cast_eq]
  rfl

/-- The features are the first argument, which no host operation writes. -/
theorem entry0_feat (c : Dev nD) : V3 m ρ c main_arg0 = m ((c : Thread nD τ).loc main_arg0) := by
  show StableHlo.after hostOps0_2 (W2 m ρ c) (Proc.devRef .tc main_arg0) = _
  after_results_simp

set_option maxHeartbeats 4000000 in
/-- The reciprocal in-degree column, from the edge list's destination row. -/
theorem entry0_dinv (c : Dev nD) :
    V3 m ρ c main_v12 = Terms.dinvT (F := Ideal) (Terms.dstT (m ((c : Thread nD τ).loc main_arg1))) := by
  show StableHlo.after hostOps0_2 (W2 m ρ c) (Proc.devRef .tc main_v12) = _
  after_results_simp
  rfl

/-- Layer 0's neighbour weights. -/
theorem entry0_wl (c : Dev nD) : V3 m ρ c main_v18 = Terms.matT0 (F := Ideal) (m ((c : Thread nD τ).loc main_arg2)) := by
  show StableHlo.after hostOps0_2 (W2 m ρ c) (Proc.devRef .tc main_v18) = _
  after_results_simp
  rfl

/-- Layer 0's root weights. -/
theorem entry0_wr (c : Dev nD) : V3 m ρ c main_v20 = Terms.matT0 (F := Ideal) (m ((c : Thread nD τ).loc main_arg3)) := by
  show StableHlo.after hostOps0_2 (W2 m ρ c) (Proc.devRef .tc main_v20) = _
  after_results_simp
  rfl

/-- Layer 0's bias row. -/
theorem entry0_bias (c : Dev nD) : V3 m ρ c main_v23 = Terms.biasT0 (F := Ideal) (m ((c : Thread nD τ).loc main_arg4)) := by
  show StableHlo.after hostOps0_2 (W2 m ρ c) (Proc.devRef .tc main_v23) = _
  after_results_simp
  rfl

/-- The first layer, from the launch memory. -/
theorem step0 (c : Dev nD) :
    W4 m ρ c (Proc.devRef .tc main_v24)
      = Cert.Sage.layer (Terms.aggT (F := Ideal) (Terms.takeT (F := Ideal) (m ((c : Thread nD τ).loc main_arg0)) (Terms.srcT (m ((c : Thread nD τ).loc main_arg1)))) (Terms.dstT (m ((c : Thread nD τ).loc main_arg1))))
          (m ((c : Thread nD τ).loc main_arg0)) (Terms.dinvT (F := Ideal) (Terms.dstT (m ((c : Thread nD τ).loc main_arg1))))
          (Terms.matT0 (F := Ideal) (m ((c : Thread nD τ).loc main_arg2))) (Terms.matT0 (F := Ideal) (m ((c : Thread nD τ).loc main_arg3))) (Terms.biasT0 (F := Ideal) (m ((c : Thread nD τ).loc main_arg4))) := by
  refine (W4_arr m ρ c 6).trans ((RegionValue.region0_array (V3 m ρ) c).trans ?_)
  rw [entry0_agg m ρ c, entry0_feat m ρ c, entry0_dinv m ρ c, entry0_wl m ρ c, entry0_wr m ρ c, entry0_bias m ρ c]

/-! ## What the last call reads, from the contents at the exit of the call before it -/

set_option maxHeartbeats 4000000 in
/-- The last call's neighbour sums: the looked-up rows of the fifth call's output, summed over each destination node. -/
theorem entry5_agg (c : Dev nD) :
    V18 m ρ c main_v76
      = Terms.aggT (F := Ideal) (Terms.takeT (F := Ideal) (W16 m ρ c (Proc.devRef .tc main_v72)) (W16 m ρ c (Proc.devRef .tc main_v1))) (W16 m ρ c (Proc.devRef .tc main_v3)) := by
  show StableHlo.after hostOps5_1 (W17 m ρ c) (Proc.devRef .tc main_v76) = _
  after_results_simp
  simp only [TRef.ofBuf, TRef.toBuf, cast_eq]
  rfl

/-- The fifth call's output, the reciprocal in-degree column and the head's weights are written by no host operation
    between the two calls. -/
theorem entry5_feat (c : Dev nD) : V18 m ρ c main_v72 = W16 m ρ c (Proc.devRef .tc main_v72) := by
  show StableHlo.after hostOps5_1 (W17 m ρ c) (Proc.devRef .tc main_v72) = _
  after_results_simp

theorem entry5_dinv (c : Dev nD) : V18 m ρ c main_v12 = W16 m ρ c (Proc.devRef .tc main_v12) := by
  show StableHlo.after hostOps5_1 (W17 m ρ c) (Proc.devRef .tc main_v12) = _
  after_results_simp

theorem entry5_headW (c : Dev nD) : V18 m ρ c main_arg5 = W16 m ρ c (Proc.devRef .tc main_arg5) := by
  show StableHlo.after hostOps5_1 (W17 m ρ c) (Proc.devRef .tc main_arg5) = _
  after_results_simp

/-- Layer 5's neighbour weights. -/
theorem entry5_wl (c : Dev nD) : V18 m ρ c main_v78 = Terms.matT5 (F := Ideal) (W16 m ρ c (Proc.devRef .tc main_arg2)) := by
  show StableHlo.after hostOps5_1 (W17 m ρ c) (Proc.devRef .tc main_v78) = _
  after_results_simp
  rfl

/-- Layer 5's root weights. -/
theorem entry5_wr (c : Dev nD) : V18 m ρ c main_v80 = Terms.matT5 (F := Ideal) (W16 m ρ c (Proc.devRef .tc main_arg3)) := by
  show StableHlo.after hostOps5_1 (W17 m ρ c) (Proc.devRef .tc main_v80) = _
  after_results_simp
  rfl

/-- Layer 5's bias row. -/
theorem entry5_bias (c : Dev nD) : V18 m ρ c main_v83 = Terms.biasT5 (F := Ideal) (W16 m ρ c (Proc.devRef .tc main_arg4)) := by
  show StableHlo.after hostOps5_1 (W17 m ρ c) (Proc.devRef .tc main_v83) = _
  after_results_simp
  rfl

/-- The head's bias as a row. -/
theorem entry5_headB (c : Dev nD) : V18 m ρ c main_v84 = Terms.headBiasT (F := Ideal) (W16 m ρ c (Proc.devRef .tc main_arg6)) := by
  show StableHlo.after hostOps5_1 (W17 m ρ c) (Proc.devRef .tc main_v84) = _
  after_results_simp
  rfl

/-- The last layer and the head, from the contents at the exit of the call before it. -/
theorem step5 (c : Dev nD) :
    W19 m ρ c (Proc.devRef .tc main_v85)
      = Cert.Sage.head (Terms.aggT (F := Ideal) (Terms.takeT (F := Ideal) (W16 m ρ c (Proc.devRef .tc main_v72)) (W16 m ρ c (Proc.devRef .tc main_v1))) (W16 m ρ c (Proc.devRef .tc main_v3)))
          (W16 m ρ c (Proc.devRef .tc main_v72)) (W16 m ρ c (Proc.devRef .tc main_v12))
          (Terms.matT5 (F := Ideal) (W16 m ρ c (Proc.devRef .tc main_arg2))) (Terms.matT5 (F := Ideal) (W16 m ρ c (Proc.devRef .tc main_arg3))) (Terms.biasT5 (F := Ideal) (W16 m ρ c (Proc.devRef .tc main_arg4)))
          (W16 m ρ c (Proc.devRef .tc main_arg5)) (Terms.headBiasT (F := Ideal) (W16 m ρ c (Proc.devRef .tc main_arg6))) := by
  refine (W19_arr m ρ c 8).trans ((RegionValue.region5_array (V18 m ρ) c).trans ?_)
  rw [entry5_agg m ρ c, entry5_feat m ρ c, entry5_dinv m ρ c, entry5_wl m ρ c, entry5_wr m ρ c, entry5_bias m ρ c,
    entry5_headW m ρ c, entry5_headB m ρ c]

end Cert.KernelIdeal.Chain

end
-- ==== Proof.SourceRange.lean ====
/-
  The source indices the precondition admits, and what the row lookup does on them. The precondition says of row 0 of
  the edge list that every entry is at least −50000 and below 50000 (as signed 32-bit words). A negative entry counts
  from the end: 50000 is added to it. So every wrapped index lies in [0, 49999], the bounds test of the lookup with
  fill holds on every edge, and that lookup is the plain row lookup: no row is ever the fill.
-/
import proofs.«407880_j40888088658252_2_alg».proof.Pre_finite_inputs
import proofs.«407880_j40888088658252_2_alg».proof.Proof.KernelTerms
import Idealize.ShloMosaic.Lib.ReduceAll
import Idealize.ShloMosaic.Lib.StableHlo.Predicate
import Idealize.ShloMosaic.Lib.ValueIdx

noncomputable section

namespace Cert.KernelIdeal.Terms

open Cert.KernelIdeal Idealize.ShloMosaic

/-- A source index the row lookup accepts: at least −50000 and below 50000, as signed 32-bit words (the two word
    compares the precondition makes). -/
def SrcOk (s : BitVec 32) : Prop :=
  IntOp.cmpi .sge s 4294917296#32 = 1#1 ∧ IntOp.cmpi .slt s 50000#32 = 1#1

/-! ## The words -/

/-- The four constants the compares meet, as signed numbers. -/
theorem toInt_lower : (4294917296#32 : BitVec 32).toInt = -50000 := by decide
theorem toInt_count : (50000#32 : BitVec 32).toInt = 50000 := by decide
theorem toInt_last : (49999#32 : BitVec 32).toInt = 49999 := by decide
theorem toInt_zero : (0#32 : BitVec 32).toInt = 0 := by decide

/-- An accepted source index, read as a signed number, lies in [−50000, 50000). -/
theorem srcOk_iff (s : BitVec 32) : SrcOk s ↔ -50000 ≤ s.toInt ∧ s.toInt < 50000 := by
  show BitVec.ofBool ((4294917296#32 : BitVec 32).sle s) = 1#1 ∧ BitVec.ofBool (s.slt 50000#32) = 1#1 ↔ _
  simp only [StableHlo.Predicate.ofBool_eq_one_iff, BitVec.sle, BitVec.slt, decide_eq_true_eq, toInt_lower, toInt_count]

/-- An accepted source index with a negative one counted from the end. -/
def wrapWord (s : BitVec 32) : BitVec 32 :=
  Scalar.select (IntOp.cmpi .slt s 0#32) (IntOp.addi s 50000#32) s

/-- The wrapped index of an accepted source index lies in [0, 49999]: a negative one is at least −50000, so adding
    50000 does not leave the signed range and lands in [0, 50000); a non-negative one is kept and is below 50000. -/
theorem wrapWord_bounds (s : BitVec 32) (hs : SrcOk s) :
    IntOp.cmpi .sge (wrapWord s) 0#32 = 1#1 ∧ IntOp.cmpi .sle (wrapWord s) 49999#32 = 1#1 := by
  obtain ⟨h1, h2⟩ := (srcOk_iff s).1 hs
  show BitVec.ofBool ((0#32 : BitVec 32).sle (wrapWord s)) = 1#1 ∧ BitVec.ofBool (BitVec.sle (wrapWord s) 49999#32) = 1#1
  simp only [StableHlo.Predicate.ofBool_eq_one_iff, BitVec.sle, decide_eq_true_eq, toInt_zero, toInt_last]
  unfold wrapWord
  by_cases hneg : s.toInt < 0
  · have hc : IntOp.cmpi .slt s 0#32 = 1#1 := by
      show BitVec.ofBool (s.slt 0#32) = 1#1
      simp only [StableHlo.Predicate.ofBool_eq_one_iff, BitVec.slt, decide_eq_true_eq, toInt_zero]
      exact hneg
    rw [hc, ValueIdx.select_one]
    have hw : (IntOp.addi s 50000#32).toInt = s.toInt + 50000 := by
      show (s + 50000#32).toInt = _
      rw [BitVec.toInt_add, toInt_count]
      exact Int.bmod_eq_of_le (by omega) (by omega)
    rw [hw]; omega
  · have hc : IntOp.cmpi .slt s 0#32 = 0#1 := by
      apply ValueIdx.eq_zero_of_ne_one
      show ¬ BitVec.ofBool (s.slt 0#32) = 1#1
      simp only [StableHlo.Predicate.ofBool_eq_one_iff, BitVec.slt, decide_eq_true_eq, toInt_zero]
      exact hneg
    rw [hc, ValueIdx.select_zero]; omega

/-! ## The precondition, read at an edge -/

/-- The scalar shape has one index. -/
theorem subsingleton_scalar_idx : Subsingleton Cert.Pre_finite_inputs.S_.Idx := ⟨fun a b => funext fun d => d.elim0⟩

/-- Under the precondition every entry of the edge list's row 0 is an accepted source index. -/
theorem srcOk_of_pre {F : FTy → Type} [FloatOps F] [Cert.Pre_finite_inputs.Facts] [Cert.KernelIdeal.Facts]
    (a0 : FVec F S50000x128 .f32) (a1 : IVec S2x600000 32) (a2 a3 : FVec F S6x128x128 .f32) (a4 : FVec F S6x128 .f32)
    (a5 : FVec F S128x2 .f32) (a6 : FVec F S2 .f32)
    (h : Cert.Pre_finite_inputs.fn (F := F) a0 a1 a2 a3 a4 a5 a6 = fun _ => 1#1) (e : S600000.Idx) :
    SrcOk (srcT a1 e) := by
  have hall := congrFun h ValueIdx.ix0
  dsimp only [Cert.Pre_finite_inputs.fn, Cert.Pre_finite_inputs.fn_part1, Cert.Pre_finite_inputs.fn_part2] at hall
  -- the last conjunct of the chain: "every entry of row 0 passes both compares"
  have hlast := (IntOp.andi_eq_one.1 hall).2
  haveI := subsingleton_scalar_idx
  have he := Host.reduce_andi_all _ _ _ _ _ hlast e
  exact IntOp.andi_eq_one.1 he

/-! ## The lookup with fill on accepted indices -/

/-- A left fold by `and` over `i1` words that are all 1, from 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by `and` from 1 over an array of 1s is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

/-- The one-column index array the lookup takes holds, in each row, the wrapped index of some edge's source. -/
theorem wrapT_apply [Cert.KernelIdeal.Facts] (src : IVec S600000 32) (i : S600000x1.Idx) :
    ∃ k : S600000.Idx, wrapT src i = wrapWord (src k) :=
  ⟨_, rfl⟩

/-- On accepted source indices the bounds test holds on every edge. -/
theorem inBoundsT_wrapT [Cert.KernelIdeal.Facts] (src : IVec S600000 32) (hs : ∀ e, SrcOk (src e)) (k : S600000.Idx) :
    inBoundsT (wrapT src) k = 1#1 := by
  unfold inBoundsT
  refine reduce_andi_ones _ _ _ _ (fun i => ?_) (fun _ => rfl) k
  obtain ⟨k', hk⟩ := wrapT_apply src i
  show IntOp.andi (IntOp.cmpi .sge (wrapT src i) 0#32) (IntOp.cmpi .sle (wrapT src i) 49999#32) = 1#1
  rw [hk]
  exact IntOp.andi_eq_one.2 (wrapWord_bounds _ (hs k'))

/-- On accepted source indices the lookup with fill is the plain lookup. -/
theorem takeT_eq_gatherT {F : FTy → Type} [FloatOps F] [Cert.KernelIdeal.Facts]
    (h : FVec F S50000x128 .f32) (src : IVec S600000 32) (hs : ∀ e, SrcOk (src e)) :
    takeT h src = gatherT h src := by
  funext j
  unfold takeT gatherT
  rw [ValueIdx.select_apply]
  have hm : broadcastInDim S600000x128 ![0] Facts₀.bcast_S600000_S600000x128_0 (inBoundsT (wrapT src)) j = 1#1 :=
    inBoundsT_wrapT src hs _
  rw [hm, ValueIdx.select_one]

end Cert.KernelIdeal.Terms

end
-- ==== Proof.Network.lean ====
/-
  The network as one function of the argument arrays. Six layers are composed: each takes the previous layer's output
  `h`, looks up its rows at the source nodes, sums them over each destination node, and applies the layer function
  with that sum, `h` itself, the reciprocal in-degrees and the layer's parameters; the last one is followed by the
  linear head. The row lookup is a parameter of the composition, so that the same composition can be read with the
  lookup that fills out-of-range rows (the kernel's host code) and with the plain lookup (the reference).
-/
import proofs.«407880_j40888088658252_2_alg».proof.Proof.KernelTerms
import proofs.«407880_j40888088658252_2_alg».proof.Proof.SageSpec

noncomputable section

namespace Cert.KernelIdeal.Chain

open Cert.KernelIdeal Idealize.ShloMosaic

variable [Cert.KernelIdeal.Facts]

section Net

variable (look : FVec Ideal S50000x128 .f32 → FVec Ideal S600000x128 .f32)
  (x : FVec Ideal S50000x128 .f32) (e : IVec S2x600000 32) (wl wr : FVec Ideal S6x128x128 .f32) (b : FVec Ideal S6x128 .f32)
  (fw : FVec Ideal S128x2 .f32) (fb : FVec Ideal S2 .f32)

/-- One layer over the features `h`, with the row lookup `look` and the layer's own matrices and bias row. -/
def layerWith (h : FVec Ideal S50000x128 .f32) (wlk wrk : FVec Ideal S128x128 .f32) (bk : FVec Ideal S1x128 .f32) :
    FVec Ideal S50000x128 .f32 :=
  Cert.Sage.layer (Terms.aggT (F := Ideal) (look h) (Terms.dstT e)) h (Terms.dinvT (F := Ideal) (Terms.dstT e)) wlk wrk bk

/-- The features after the first layer … after the fifth. -/
def hid1 : FVec Ideal S50000x128 .f32 := layerWith look e x (Terms.matT0 wl) (Terms.matT0 wr) (Terms.biasT0 b)
def hid2 : FVec Ideal S50000x128 .f32 := layerWith look e (hid1 look x e wl wr b) (Terms.matT1 wl) (Terms.matT1 wr) (Terms.biasT1 b)
def hid3 : FVec Ideal S50000x128 .f32 := layerWith look e (hid2 look x e wl wr b) (Terms.matT2 wl) (Terms.matT2 wr) (Terms.biasT2 b)
def hid4 : FVec Ideal S50000x128 .f32 := layerWith look e (hid3 look x e wl wr b) (Terms.matT3 wl) (Terms.matT3 wr) (Terms.biasT3 b)
def hid5 : FVec Ideal S50000x128 .f32 := layerWith look e (hid4 look x e wl wr b) (Terms.matT4 wl) (Terms.matT4 wr) (Terms.biasT4 b)

/-- The whole network: the sixth layer on the fifth's output, then the head. -/
def logits : FVec Ideal S50000x2 .f32 :=
  Cert.Sage.head (Terms.aggT (F := Ideal) (look (hid5 look x e wl wr b)) (Terms.dstT e)) (hid5 look x e wl wr b)
    (Terms.dinvT (F := Ideal) (Terms.dstT e)) (Terms.matT5 wl) (Terms.matT5 wr) (Terms.biasT5 b) fw (Terms.headBiasT fb)

end Net

/-- The lookup the kernel's host code performs: rows at the wrapped source indices, out-of-range rows filled. -/
abbrev lookFill (e : IVec S2x600000 32) : FVec Ideal S50000x128 .f32 → FVec Ideal S600000x128 .f32 :=
  fun h => Terms.takeT (F := Ideal) h (Terms.srcT e)

/-- The plain lookup. -/
abbrev lookPlain (e : IVec S2x600000 32) : FVec Ideal S50000x128 .f32 → FVec Ideal S600000x128 .f32 :=
  fun h => Terms.gatherT (F := Ideal) h (Terms.srcT e)

end Cert.KernelIdeal.Chain

end
-- ==== Proof.KernelValue.lean ====
/-
  The kernel's result is the network of the argument arrays. The six calls' outputs are read one after the other, each
  layer finding the edge list's rows, the degrees and the parameters as no segment in between has written them; the
  host code's row lookup fills out-of-range rows, and on accepted source indices that lookup is the plain one.
-/
import proofs.«407880_j40888088658252_2_alg».proof.Proof.LaunchNamed
import proofs.«407880_j40888088658252_2_alg».proof.Proof.Persist
import proofs.«407880_j40888088658252_2_alg».proof.Proof.LayerSteps
import proofs.«407880_j40888088658252_2_alg».proof.Proof.LayerEnds
import proofs.«407880_j40888088658252_2_alg».proof.Proof.SourceRange
import proofs.«407880_j40888088658252_2_alg».proof.Proof.Network

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array at the last boundary of the kernel's program is the network of the argument arrays, with the
    filling lookup: the six calls' outputs one after the other, every layer reading the edge list, the degrees and
    the parameters that no segment in between has written. -/
theorem result_eq (c : Dev nD) :
    W19 m ρ c (Proc.devRef .tc main_v85)
      = logits (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have k4 := kept_W4 m ρ c
  have k7 := kept_W7 m ρ c
  have k10 := kept_W10 m ρ c
  have k13 := kept_W13 m ρ c
  have k16 := kept_W16 m ρ c
  have h1 : W4 m ρ c (Proc.devRef .tc main_v24) = hid1 (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) :=
    step0 m ρ c
  have h2 : W7 m ρ c (Proc.devRef .tc main_v36) = hid2 (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) := by
    rw [step1 m ρ c, k4.src, k4.dst, k4.dinv, k4.wl, k4.wr, k4.bl, h1]; rfl
  have h3 : W10 m ρ c (Proc.devRef .tc main_v48) = hid3 (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) := by
    rw [step2 m ρ c, k7.src, k7.dst, k7.dinv, k7.wl, k7.wr, k7.bl, h2]; rfl
  have h4 : W13 m ρ c (Proc.devRef .tc main_v60) = hid4 (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) := by
    rw [step3 m ρ c, k10.src, k10.dst, k10.dinv, k10.wl, k10.wr, k10.bl, h3]; rfl
  have h5 : W16 m ρ c (Proc.devRef .tc main_v72) = hid5 (lookFill (m ((c : Thread nD τ).loc main_arg1))) (m ((c : Thread nD τ).loc main_arg0)) (m ((c : Thread nD τ).loc main_arg1)) (m ((c : Thread nD τ).loc main_arg2)) (m ((c : Thread nD τ).loc main_arg3)) (m ((c : Thread nD τ).loc main_arg4)) := by
    rw [step4 m ρ c, k13.src, k13.dst, k13.dinv, k13.wl, k13.wr, k13.bl, h4]; rfl
  rw [step5 m ρ c, k16.src, k16.dst, k16.dinv, k16.wl, k16.wr, k16.bl, k16.fw, k16.fb, h5]; rfl

/-- On accepted source indices the network with the filling lookup is the network with the plain lookup. -/
theorem logits_fill_eq_plain (x : FVec Ideal S50000x128 .f32) (e : IVec S2x600000 32) (wl wr : FVec Ideal S6x128x128 .f32)
    (b : FVec Ideal S6x128 .f32) (fw : FVec Ideal S128x2 .f32) (fb : FVec Ideal S2 .f32)
    (hs : ∀ i, Terms.SrcOk (Terms.srcT e i)) :
    logits (lookFill e) x e wl wr b fw fb = logits (lookPlain e) x e wl wr b fw fb := by
  have hl : lookFill e = lookPlain e := funext fun h => Terms.takeT_eq_gatherT h (Terms.srcT e) hs
  rw [hl]

end Cert.KernelIdeal.Chain

end
-- ==== Proof.RefFold.lean ====
/-
  The reference's program as a fold over eight consecutive chunks of its 201 host operations: the edge list's rows and
  the reciprocal in-degree column; six layers; the head. The edge list's rows, the degrees and the parameters are
  written before the first layer or never, so every later boundary holds them as they were, and the arguments end as
  launched. The kept values are spelt with the same functions as on the kernel's side: the two programs make them by
  the same host operations.
-/
import proofs.«407880_j40888088658252_2_alg».proof.Proof.RefOps
import proofs.«407880_j40888088658252_2_alg».proof.Proof.Gen.KernelIdeal
import proofs.«407880_j40888088658252_2_alg».proof.Proof.KernelTerms
import Idealize.ShloMosaic.Lib.StableHlo.Run
import Idealize.ShloMosaic.Lib.ValueIdx

set_option maxRecDepth 16384

noncomputable section

namespace Cert.ReferenceIdeal.Chain

open Cert.ReferenceIdeal Cert.ReferenceIdeal.Gen Cert.ReferenceIdeal.Ops Idealize.ShloMosaic Idealize.ShloMosaic.TcCoe Idealize.SL.Sem Idealize.ShloMosaic.StableHlo

section Fold

variable {F : FTy → Type} [FloatOps F]
variable (m : (ℓ : Loc nD τ sig) → Buf (Elt F) ℓ)

/-- The contents after the degree stretch, after each layer, and at the end. -/
def R1 (d : Dev nD) : Valuation τ sig (Elt F) := after opsDeg (launchContents m d)
def R2 (d : Dev nD) : Valuation τ sig (Elt F) := after opsLayer0 (R1 m d)
def R3 (d : Dev nD) : Valuation τ sig (Elt F) := after opsLayer1 (R2 m d)
def R4 (d : Dev nD) : Valuation τ sig (Elt F) := after opsLayer2 (R3 m d)
def R5 (d : Dev nD) : Valuation τ sig (Elt F) := after opsLayer3 (R4 m d)
def R6 (d : Dev nD) : Valuation τ sig (Elt F) := after opsLayer4 (R5 m d)
def R7 (d : Dev nD) : Valuation τ sig (Elt F) := after opsLayer5 (R6 m d)
def R8 (d : Dev nD) : Valuation τ sig (Elt F) := after opsHead (R7 m d)

/-- No operation of the named chunk writes the buffer in the goal, so the chunk leaves it as it was. -/
macro "chunk_keeps" h:ident : tactic => `(tactic| (
  refine StableHlo.after_of_forall_not_mem _ _ (List.forall_iff_forall_mem.mp ?_)
  simp only [$h:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The buffer in the goal is as it was before the named chunk (no operation of the chunk writes it), and what it was
    then is `p`. -/
macro "still" h:ident "then" p:term : term =>
  `(Eq.trans (by (show after $h _ _ = _); chunk_keeps $h) $p)

/-- The fold over two lists in a row is the fold over the second from the fold over the first. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- The whole list's fold is the chunks' folds one after the other. -/
theorem after_ops (d : Dev nD) : after (ops (F := F)) (launchContents m d) = R8 m d := by
  rw [ops_split]
  simp only [after_two]
  rfl

/-- What a boundary of the reference must still hold for the layers after it. -/
structure Kept (E : Dev nD → Valuation τ sig (Elt F)) (d : Dev nD) : Prop where
  src : E d (Proc.devRef .tc main_v1) = Cert.KernelIdeal.Terms.srcT (m ((d.tc : Thread nD τ).loc main_arg1))
  dst : E d (Proc.devRef .tc main_v3) = Cert.KernelIdeal.Terms.dstT (m ((d.tc : Thread nD τ).loc main_arg1))
  dinv : E d (Proc.devRef .tc main_v12) = Cert.KernelIdeal.Terms.dinvT (F := F) (Cert.KernelIdeal.Terms.dstT (m ((d.tc : Thread nD τ).loc main_arg1)))
  x : E d (Proc.devRef .tc main_arg0) = (m ((d.tc : Thread nD τ).loc main_arg0))
  wl : E d (Proc.devRef .tc main_arg2) = (m ((d.tc : Thread nD τ).loc main_arg2))
  wr : E d (Proc.devRef .tc main_arg3) = (m ((d.tc : Thread nD τ).loc main_arg3))
  bl : E d (Proc.devRef .tc main_arg4) = (m ((d.tc : Thread nD τ).loc main_arg4))
  fw : E d (Proc.devRef .tc main_arg5) = (m ((d.tc : Thread nD τ).loc main_arg5))
  fb : E d (Proc.devRef .tc main_arg6) = (m ((d.tc : Thread nD τ).loc main_arg6))

/-! ### After the degree stretch: it writes the two rows and the degree column, and no argument -/

theorem R1_v1 (d : Dev nD) :
    R1 m d (Proc.devRef .tc main_v1) = Cert.KernelIdeal.Terms.srcT (m ((d.tc : Thread nD τ).loc main_arg1)) := by
  show after opsDeg (launchContents m d) (Proc.devRef .tc main_v1) = _
  after_results
  rfl

theorem R1_v3 (d : Dev nD) :
    R1 m d (Proc.devRef .tc main_v3) = Cert.KernelIdeal.Terms.dstT (m ((d.tc : Thread nD τ).loc main_arg1)) := by
  show after opsDeg (launchContents m d) (Proc.devRef .tc main_v3) = _
  after_results
  rfl

theorem R1_v12 (d : Dev nD) :
    R1 m d (Proc.devRef .tc main_v12)
      = Cert.KernelIdeal.Terms.dinvT (F := F) (Cert.KernelIdeal.Terms.dstT (m ((d.tc : Thread nD τ).loc main_arg1))) := by
  show after opsDeg (launchContents m d) (Proc.devRef .tc main_v12) = _
  after_results
  rfl

theorem kept_R1 (d : Dev nD) : Kept m (R1 m) d where
  src := R1_v1 m d
  dst := R1_v3 m d
  dinv := R1_v12 m d
  x := still opsDeg then (rfl : launchContents m d (Proc.devRef .tc main_arg0) = _)
  wl := still opsDeg then (rfl : launchContents m d (Proc.devRef .tc main_arg2) = _)
  wr := still opsDeg then (rfl : launchContents m d (Proc.devRef .tc main_arg3) = _)
  bl := still opsDeg then (rfl : launchContents m d (Proc.devRef .tc main_arg4) = _)
  fw := still opsDeg then (rfl : launchContents m d (Proc.devRef .tc main_arg5) = _)
  fb := still opsDeg then (rfl : launchContents m d (Proc.devRef .tc main_arg6) = _)

/-! ### Across each layer: its chunk writes none of the nine buffers -/

theorem kept_R2 (d : Dev nD) : Kept m (R2 m) d :=
  have h := kept_R1 m d
  { src := still opsLayer0 then h.src
    dst := still opsLayer0 then h.dst
    dinv := still opsLayer0 then h.dinv
    x := still opsLayer0 then h.x
    wl := still opsLayer0 then h.wl
    wr := still opsLayer0 then h.wr
    bl := still opsLayer0 then h.bl
    fw := still opsLayer0 then h.fw
    fb := still opsLayer0 then h.fb }
theorem kept_R3 (d : Dev nD) : Kept m (R3 m) d :=
  have h := kept_R2 m d
  { src := still opsLayer1 then h.src
    dst := still opsLayer1 then h.dst
    dinv := still opsLayer1 then h.dinv
    x := still opsLayer1 then h.x
    wl := still opsLayer1 then h.wl
    wr := still opsLayer1 then h.wr
    bl := still opsLayer1 then h.bl
    fw := still opsLayer1 then h.fw
    fb := still opsLayer1 then h.fb }
theorem kept_R4 (d : Dev nD) : Kept m (R4 m) d :=
  have h := kept_R3 m d
  { src := still opsLayer2 then h.src
    dst := still opsLayer2 then h.dst
    dinv := still opsLayer2 then h.dinv
    x := still opsLayer2 then h.x
    wl := still opsLayer2 then h.wl
    wr := still opsLayer2 then h.wr
    bl := still opsLayer2 then h.bl
    fw := still opsLayer2 then h.fw
    fb := still opsLayer2 then h.fb }
theorem kept_R5 (d : Dev nD) : Kept m (R5 m) d :=
  have h := kept_R4 m d
  { src := still opsLayer3 then h.src
    dst := still opsLayer3 then h.dst
    dinv := still opsLayer3 then h.dinv
    x := still opsLayer3 then h.x
    wl := still opsLayer3 then h.wl
    wr := still opsLayer3 then h.wr
    bl := still opsLayer3 then h.bl
    fw := still opsLayer3 then h.fw
    fb := still opsLayer3 then h.fb }
theorem kept_R6 (d : Dev nD) : Kept m (R6 m) d :=
  have h := kept_R5 m d
  { src := still opsLayer4 then h.src
    dst := still opsLayer4 then h.dst
    dinv := still opsLayer4 then h.dinv
    x := still opsLayer4 then h.x
    wl := still opsLayer4 then h.wl
    wr := still opsLayer4 then h.wr
    bl := still opsLayer4 then h.bl
    fw := still opsLayer4 then h.fw
    fb := still opsLayer4 then h.fb }

/-- No operation of the reference writes an argument: at the end each still holds the launch memory. -/
theorem args_end (d : Dev nD) :
    R8 m d (Proc.devRef .tc main_arg0) = (m ((d.tc : Thread nD τ).loc main_arg0))
    ∧ R8 m d (Proc.devRef .tc main_arg1) = (m ((d.tc : Thread nD τ).loc main_arg1))
    ∧ R8 m d (Proc.devRef .tc main_arg2) = (m ((d.tc : Thread nD τ).loc main_arg2))
    ∧ R8 m d (Proc.devRef .tc main_arg3) = (m ((d.tc : Thread nD τ).loc main_arg3))
    ∧ R8 m d (Proc.devRef .tc main_arg4) = (m ((d.tc : Thread nD τ).loc main_arg4))
    ∧ R8 m d (Proc.devRef .tc main_arg5) = (m ((d.tc : Thread nD τ).loc main_arg5))
    ∧ R8 m d (Proc.devRef .tc main_arg6) = (m ((d.tc : Thread nD τ).loc main_arg6)) :=
  have h := kept_R6 m d
  ⟨still opsHead then still opsLayer5 then h.x,
   still opsHead then still opsLayer5 then still opsLayer4 then still opsLayer3 then still opsLayer2 then
     still opsLayer1 then still opsLayer0 then still opsDeg then
     (rfl : launchContents m d (Proc.devRef .tc main_arg1) = _),
   still opsHead then still opsLayer5 then h.wl,
   still opsHead then still opsLayer5 then h.wr,
   still opsHead then still opsLayer5 then h.bl,
   still opsHead then still opsLayer5 then h.fw,
   still opsHead then still opsLayer5 then h.fb⟩

end Fold

end Cert.ReferenceIdeal.Chain

end
-- ==== Proof.RefLayerLaw.lean ====
/-
  One layer of the reference, and its head, as whole-array terms over variables: the rectified sum of the two
  whole-array matrix products and the broadcast bias is the layer function, index by index; the head's product plus
  its broadcast bias is the head's sum. A whole-array matrix product read at row r, column j is the sum over the 128
  contracted coordinates; a column broadcast along rows reads the column at the row, a row broadcast down the rows
  reads the row at the column; a vector laid out as a one-row matrix reads, either way it is made, the vector at
  the column.
-/
import proofs.«407880_j40888088658252_2_alg».proof.ReferenceIdeal
import proofs.«407880_j40888088658252_2_alg».proof.Proof.Gen.ReferenceIdeal
import proofs.«407880_j40888088658252_2_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Chain

open Cert.ReferenceIdeal Cert.ReferenceIdeal.Gen Idealize.ShloMosaic
open Idealize.ShloMosaic.ValueIdx

namespace Law

/-! ## The two matrix products read at an index -/

/-- The operand indices of the layer's product [50000,128] × [128,128] at an output index and a contraction index. -/
theorem layer_dot_lhs_row (i : S50000x128.Idx) (s : dot_S50000x128_S128x128_S50000x128_1_0_0_1_n_n.contr.Idx) :
    (dot_S50000x128_S128x128_S50000x128_1_0_0_1_n_n.lhsIdx i s 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem layer_dot_lhs_col (i : S50000x128.Idx) (s : dot_S50000x128_S128x128_S50000x128_1_0_0_1_n_n.contr.Idx) :
    (dot_S50000x128_S128x128_S50000x128_1_0_0_1_n_n.lhsIdx i s 1).val = (s ⟨0, by decide⟩).val :=
  dot_S50000x128_S128x128_S50000x128_1_0_0_1_n_n.lhsIdx_val_of_single rfl i s
theorem layer_dot_rhs_row (i : S50000x128.Idx) (s : dot_S50000x128_S128x128_S50000x128_1_0_0_1_n_n.contr.Idx) :
    (dot_S50000x128_S128x128_S50000x128_1_0_0_1_n_n.rhsIdx i s 0).val = (s ⟨0, by decide⟩).val :=
  dot_S50000x128_S128x128_S50000x128_1_0_0_1_n_n.rhsIdx_val_of_single rfl i s
theorem layer_dot_rhs_col (i : S50000x128.Idx) (s : dot_S50000x128_S128x128_S50000x128_1_0_0_1_n_n.contr.Idx) :
    (dot_S50000x128_S128x128_S50000x128_1_0_0_1_n_n.rhsIdx i s 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A layer's whole-array product at row `r`, column `j`: the sum over the 128 shared coordinates. -/
theorem layer_dot_apply (x : FVec Ideal S50000x128 .f32) (w : FVec Ideal S128x128 .f32) (r : Fin 50000) (j : Fin 128) :
    Host.dotGeneral dot_S50000x128_S128x128_S50000x128_1_0_0_1_n_n none x w (ix2 r j) = ∑ k : Fin 128, x (ix2 r k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact layer_dot_lhs_row _ _
    | ⟨1, _⟩ => exact (layer_dot_lhs_col _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (layer_dot_rhs_row _ _).trans hk
    | ⟨1, _⟩ => exact layer_dot_rhs_col _ _)
  rw [el, er]

/-- The operand indices of the head's product [50000,128] × [128,2]. -/
theorem head_dot_lhs_row (i : S50000x2.Idx) (s : dot_S50000x128_S128x2_S50000x2_1_0_0_1_n_n.contr.Idx) :
    (dot_S50000x128_S128x2_S50000x2_1_0_0_1_n_n.lhsIdx i s 0).val = (i 0).val := by
  unfold DotDims.lhsIdx
  rw [dif_neg (show ¬(0 : Fin S50000x128.rank) ∈ dot_S50000x128_S128x2_S50000x2_1_0_0_1_n_n.lhsBatch by decide), dif_pos (show (0 : Fin S50000x128.rank) ∈ dot_S50000x128_S128x2_S50000x2_1_0_0_1_n_n.lhsNonContracting by decide)]
  rfl
theorem head_dot_lhs_col (i : S50000x2.Idx) (s : dot_S50000x128_S128x2_S50000x2_1_0_0_1_n_n.contr.Idx) :
    (dot_S50000x128_S128x2_S50000x2_1_0_0_1_n_n.lhsIdx i s 1).val = (s ⟨0, by decide⟩).val :=
  dot_S50000x128_S128x2_S50000x2_1_0_0_1_n_n.lhsIdx_val_of_single rfl i s
theorem head_dot_rhs_row (i : S50000x2.Idx) (s : dot_S50000x128_S128x2_S50000x2_1_0_0_1_n_n.contr.Idx) :
    (dot_S50000x128_S128x2_S50000x2_1_0_0_1_n_n.rhsIdx i s 0).val = (s ⟨0, by decide⟩).val :=
  dot_S50000x128_S128x2_S50000x2_1_0_0_1_n_n.rhsIdx_val_of_single rfl i s
theorem head_dot_rhs_col (i : S50000x2.Idx) (s : dot_S50000x128_S128x2_S50000x2_1_0_0_1_n_n.contr.Idx) :
    (dot_S50000x128_S128x2_S50000x2_1_0_0_1_n_n.rhsIdx i s 1).val = (i 1).val := by
  unfold DotDims.rhsIdx
  rw [dif_neg (show ¬(1 : Fin S128x2.rank) ∈ dot_S50000x128_S128x2_S50000x2_1_0_0_1_n_n.rhsBatch by decide), dif_pos (show (1 : Fin S128x2.rank) ∈ dot_S50000x128_S128x2_S50000x2_1_0_0_1_n_n.rhsNonContracting by decide)]
  rfl

/-- The head's whole-array product at row `r`, class `j`. -/
theorem head_dot_apply (x : FVec Ideal S50000x128 .f32) (w : FVec Ideal S128x2 .f32) (r : Fin 50000) (j : Fin 2) :
    Host.dotGeneral dot_S50000x128_S128x2_S50000x2_1_0_0_1_n_n none x w (ix2 r j) = ∑ k : Fin 128, x (ix2 r k) * w (ix2 k j) := by
  simp only [Host.dotGeneral]
  rw [Ideal.dotGeneral_apply, ← Equiv.sum_comp (ValueIdx.contrEquiv1 dot_S50000x128_S128x2_S50000x2_1_0_0_1_n_n 128 rfl rfl).symm]
  refine Finset.sum_congr rfl fun k _ => ?_
  have hk := ValueIdx.contrEquiv1_symm_val dot_S50000x128_S128x2_S50000x2_1_0_0_1_n_n 128 rfl rfl k
  have el : dot_S50000x128_S128x2_S50000x2_1_0_0_1_n_n.lhsIdx (ix2 r j) ((ValueIdx.contrEquiv1 dot_S50000x128_S128x2_S50000x2_1_0_0_1_n_n 128 rfl rfl).symm k) = ix2 r k := funext fun a => Fin.ext (by
    match a with
    | ⟨0, _⟩ => exact head_dot_lhs_row _ _
    | ⟨1, _⟩ => exact (head_dot_lhs_col _ _).trans hk)
  have er : dot_S50000x128_S128x2_S50000x2_1_0_0_1_n_n.rhsIdx (ix2 r j) ((ValueIdx.contrEquiv1 dot_S50000x128_S128x2_S50000x2_1_0_0_1_n_n 128 rfl rfl).symm k) = ix2 k j := funext fun a => Fin.ext (by
    match a with
    | ⟨0, _⟩ => exact (head_dot_rhs_row _ _).trans hk
    | ⟨1, _⟩ => exact head_dot_rhs_col _ _)
  rw [el, er]

/-! ## The broadcasts read at an index -/

/-- The reciprocal-degree column spread over the 128 columns, at row `r`: the column's entry at `r`. -/
theorem column_spread_apply {α : Type} (ev : S50000x1.BroadcastsInDim S50000x128 (![0, 1] : Fin 2 → Fin S50000x128.rank))
    (dcol : S50000x1.Idx → α) (r : Fin 50000) (k : Fin 128) :
    broadcastInDim S50000x128 ![0, 1] ev dcol (ix2 r k) = dcol (ix2 r (0 : Fin 1)) :=
  broadcastInDim_apply ![0, 1] ev dcol (ix2 r k) (ix2 r (0 : Fin 1)) fun a => by
    match a with
    | ⟨0, _⟩ => rfl
    | ⟨1, _⟩ => rfl

/-- The bias row spread down the 50000 rows, at column `j`: the row's entry at `j`. -/
theorem row_spread_apply {α : Type} (ev : S1x128.BroadcastsInDim S50000x128 (![0, 1] : Fin 2 → Fin S50000x128.rank))
    (brow : S1x128.Idx → α) (r : Fin 50000) (j : Fin 128) :
    broadcastInDim S50000x128 ![0, 1] ev brow (ix2 r j) = brow (ix2 (0 : Fin 1) j) :=
  broadcastInDim_apply ![0, 1] ev brow (ix2 r j) (ix2 (0 : Fin 1) j) fun a => by
    match a with
    | ⟨0, _⟩ => rfl
    | ⟨1, _⟩ => rfl

/-- The head's bias row spread down the rows, at class `o`. -/
theorem head_row_spread_apply {α : Type} (ev : S1x2.BroadcastsInDim S50000x2 (![0, 1] : Fin 2 → Fin S50000x2.rank))
    (fbrow : S1x2.Idx → α) (r : Fin 50000) (o : Fin 2) :
    broadcastInDim S50000x2 ![0, 1] ev fbrow (ix2 r o) = fbrow (ix2 (0 : Fin 1) o) :=
  broadcastInDim_apply ![0, 1] ev fbrow (ix2 r o) (ix2 (0 : Fin 1) o) fun a => by
    match a with
    | ⟨0, _⟩ => rfl
    | ⟨1, _⟩ => rfl

end Law

/-! ## A vector as a one-row matrix -/

/-- A [128] vector broadcast along the columns of a [1,128] matrix is the vector reshaped to [1,128]: both read the
    vector at the column. -/
theorem bias_row {α : Type} (ev : (⟨1, ![128]⟩ : Shape).BroadcastsInDim ⟨2, ![1, 128]⟩ (![1] : Fin 1 → Fin 2))
    (ev' : (⟨1, ![128]⟩ : Shape).ShapeCasts ⟨2, ![1, 128]⟩) (v : (⟨1, ![128]⟩ : Shape).Idx → α) :
    broadcastInDim (⟨2, ![1, 128]⟩ : Shape) ![1] ev v = shapeCast (⟨2, ![1, 128]⟩ : Shape) v ev' := by
  funext i
  obtain ⟨p, q, rfl⟩ : ∃ (p : Fin 1) (q : Fin 128), i = ix2 p q := ⟨i 0, i 1, eq_ix2 i⟩
  rw [broadcastInDim_apply ![1] ev v (ix2 p q) (ix1 q) (fun a => by match a with | ⟨0, _⟩ => rfl),
    shapeCast_apply v ev' (ix2 p q) (ix1 q) (by
      rw [Shape.rowMajor_val_one, Shape.rowMajor_val_two]
      have hp : p.val = 0 := by have := p.isLt; omega
      show q.val = p.val * 128 + q.val
      rw [hp]; omega)]

/-- The same for the head's [2] bias and the [1,2] matrix. -/
theorem head_bias_row {α : Type} (ev : (⟨1, ![2]⟩ : Shape).BroadcastsInDim ⟨2, ![1, 2]⟩ (![1] : Fin 1 → Fin 2))
    (ev' : (⟨1, ![2]⟩ : Shape).ShapeCasts ⟨2, ![1, 2]⟩) (v : (⟨1, ![2]⟩ : Shape).Idx → α) :
    broadcastInDim (⟨2, ![1, 2]⟩ : Shape) ![1] ev v = shapeCast (⟨2, ![1, 2]⟩ : Shape) v ev' := by
  funext i
  obtain ⟨p, q, rfl⟩ : ∃ (p : Fin 1) (q : Fin 2), i = ix2 p q := ⟨i 0, i 1, eq_ix2 i⟩
  rw [broadcastInDim_apply ![1] ev v (ix2 p q) (ix1 q) (fun a => by match a with | ⟨0, _⟩ => rfl),
    shapeCast_apply v ev' (ix2 p q) (ix1 q) (by
      rw [Shape.rowMajor_val_one, Shape.rowMajor_val_two]
      have hp : p.val = 0 := by have := p.isLt; omega
      show q.val = p.val * 2 + q.val
      rw [hp]; omega)]

/-! ## The layer and the head -/

/-- One layer as the reference spells it on whole arrays — the neighbour sums scaled by the broadcast reciprocal
    degrees through `wl`, plus the features through `wr`, plus the broadcast bias, rectified against a broadcast
    zero — is the layer function. -/
theorem layer_law (a h : FVec Ideal S50000x128 .f32) (dcol : FVec Ideal S50000x1 .f32) (wl wr : FVec Ideal S128x128 .f32)
    (brow : FVec Ideal S1x128 .f32) :
    maximumf
        (addf
          (addf
            (Host.dotGeneral dot_S50000x128_S128x128_S50000x128_1_0_0_1_n_n none
              (mulf a (broadcastInDim S50000x128 ![0, 1] bcast_S50000x1_S50000x128_0_1 dcol)) wl)
            (Host.dotGeneral dot_S50000x128_S128x128_S50000x128_1_0_0_1_n_n none h wr))
          (broadcastInDim S50000x128 ![0, 1] bcast_S1x128_S50000x128_0_1 brow))
        (broadcastInDim S50000x128 ![] bcast_S_S50000x128 (constant (F := Ideal) S_ .f32 0x00000000#32))
      = Cert.Sage.layer a h dcol wl wr brow := by
  funext i
  obtain ⟨r, j, rfl⟩ : ∃ (r : Fin 50000) (j : Fin 128), i = ix2 r j := ⟨i 0, i 1, eq_ix2 i⟩
  rw [Cert.Sage.layer_apply]
  unfold Cert.Sage.preact
  rw [maximumf_apply, addf_apply, addf_apply, Law.layer_dot_apply, Law.layer_dot_apply, Law.row_spread_apply]
  have e : ∀ k : Fin 128, mulf a (broadcastInDim S50000x128 ![0, 1] bcast_S50000x1_S50000x128_0_1 dcol) (ix2 r k)
      = a (ix2 r k) * dcol (ix2 r (0 : Fin 1)) := fun k => by
    rw [mulf_apply, Law.column_spread_apply]
  simp only [e]
  show max _ (Ideal.ofBits .f32 0x00000000#32) = _
  rw [Ideal.ofBits_zero_f32]

/-- The head as the reference spells it — the hidden rows through `fw` plus the broadcast bias — read at an index. -/
theorem head_law (hid : FVec Ideal S50000x128 .f32) (fw : FVec Ideal S128x2 .f32) (fbrow : FVec Ideal S1x2 .f32) :
    addf (Host.dotGeneral dot_S50000x128_S128x2_S50000x2_1_0_0_1_n_n none hid fw)
        (broadcastInDim S50000x2 ![0, 1] bcast_S1x2_S50000x2_0_1 fbrow)
      = fun i => (∑ k : Fin 128, hid (ix2 (i 0) k) * fw (ix2 k (i 1))) + fbrow (ix2 (0 : Fin 1) (i 1)) := by
  funext i
  obtain ⟨r, o, rfl⟩ : ∃ (r : Fin 50000) (o : Fin 2), i = ix2 r o := ⟨i 0, i 1, eq_ix2 i⟩
  rw [addf_apply, Law.head_dot_apply, Law.head_row_spread_apply]

/-- With the hidden rows a layer's output, that is the head function. -/
theorem head_of_layer (a h : FVec Ideal S50000x128 .f32) (dcol : FVec Ideal S50000x1 .f32) (wl wr : FVec Ideal S128x128 .f32)
    (brow : FVec Ideal S1x128 .f32) (fw : FVec Ideal S128x2 .f32) (fbrow : FVec Ideal S1x2 .f32) :
    addf (Host.dotGeneral (F := Ideal) (φ₁ := .f32) dot_S50000x128_S128x2_S50000x2_1_0_0_1_n_n none (Cert.Sage.layer a h dcol wl wr brow) fw)
        (broadcastInDim S50000x2 ![0, 1] bcast_S1x2_S50000x2_0_1 fbrow)
      = Cert.Sage.head a h dcol wl wr brow fw fbrow :=
  head_law _ fw fbrow

end Cert.ReferenceIdeal.Chain

end
-- ==== Proof.RefSteps.lean ====
/-
  The reference's layers, stretch by stretch. Each layer's output (the rectifier's result) is the layer function of the
  previous layer's output looked up at the source nodes and summed over the destination nodes, of that output itself,
  of the reciprocal in-degrees and of the layer's parameters, all read at the boundary before the layer; the last
  layer is read together with the head. A whole-array matrix product read at an index is the sum over the contracted
  axis; the bias broadcast along rows reads the bias at the column.
-/
import proofs.«407880_j40888088658252_2_alg».proof.Proof.RefFold
import proofs.«407880_j40888088658252_2_alg».proof.Proof.Gen.KernelIdeal
import proofs.«407880_j40888088658252_2_alg».proof.Proof.KernelTerms
import proofs.«407880_j40888088658252_2_alg».proof.Proof.SageSpec
import proofs.«407880_j40888088658252_2_alg».proof.Proof.RefLayerLaw
import Idealize.ShloMosaic.Lib.StableHlo.Run
import Idealize.ShloMosaic.Lib.ValueIdx
import Idealize.ShloMosaic.PureOps.Ideal.Laws

set_option maxRecDepth 16384

noncomputable section

namespace Cert.ReferenceIdeal.Chain

open Cert.ReferenceIdeal Cert.ReferenceIdeal.Gen Cert.ReferenceIdeal.Ops Idealize.ShloMosaic Idealize.ShloMosaic.TcCoe Idealize.SL.Sem Idealize.ShloMosaic.StableHlo

section Steps

variable (m : (ℓ : Loc nD τ sig) → Buf (Elt Ideal) ℓ)

set_option maxHeartbeats 4000000 in
/-- Layer 0 of the reference, from the contents after the degree stretch. -/
theorem rstep0 (d : Dev nD) :
    R2 m d (Proc.devRef .tc main_v37)
      = Cert.Sage.layer
          (Cert.KernelIdeal.Terms.aggT (F := Ideal)
            (Cert.KernelIdeal.Terms.gatherT (F := Ideal) (R1 m d (Proc.devRef .tc main_arg0)) (R1 m d (Proc.devRef .tc main_v1)))
            (R1 m d (Proc.devRef .tc main_v3)))
          (R1 m d (Proc.devRef .tc main_arg0)) (R1 m d (Proc.devRef .tc main_v12))
          (Cert.KernelIdeal.Terms.matT0 (F := Ideal) (R1 m d (Proc.devRef .tc main_arg2)))
          (Cert.KernelIdeal.Terms.matT0 (F := Ideal) (R1 m d (Proc.devRef .tc main_arg3)))
          (Cert.KernelIdeal.Terms.biasT0 (F := Ideal) (R1 m d (Proc.devRef .tc main_arg4))) := by
  show after opsLayer0 (R1 m d) (Proc.devRef .tc main_v37) = _
  generalize R1 m d = E
  after_results_simp
  simp only [TRef.ofBuf, TRef.toBuf, cast_eq]
  refine (layer_law _ _ _ _ _ _).trans ?_
  rw [bias_row _ Cert.KernelIdeal.Facts₀.shapeCasts_S128_S1x128]
  rfl

set_option maxHeartbeats 4000000 in
/-- Layer 1 of the reference, from the contents after layer 0. -/
theorem rstep1 (d : Dev nD) :
    R3 m d (Proc.devRef .tc main_v62)
      = Cert.Sage.layer
          (Cert.KernelIdeal.Terms.aggT (F := Ideal)
            (Cert.KernelIdeal.Terms.gatherT (F := Ideal) (R2 m d (Proc.devRef .tc main_v37)) (R2 m d (Proc.devRef .tc main_v1)))
            (R2 m d (Proc.devRef .tc main_v3)))
          (R2 m d (Proc.devRef .tc main_v37)) (R2 m d (Proc.devRef .tc main_v12))
          (Cert.KernelIdeal.Terms.matT1 (F := Ideal) (R2 m d (Proc.devRef .tc main_arg2)))
          (Cert.KernelIdeal.Terms.matT1 (F := Ideal) (R2 m d (Proc.devRef .tc main_arg3)))
          (Cert.KernelIdeal.Terms.biasT1 (F := Ideal) (R2 m d (Proc.devRef .tc main_arg4))) := by
  show after opsLayer1 (R2 m d) (Proc.devRef .tc main_v62) = _
  generalize R2 m d = E
  after_results_simp
  simp only [TRef.ofBuf, TRef.toBuf, cast_eq]
  refine (layer_law _ _ _ _ _ _).trans ?_
  exact congrArg (Cert.Sage.layer _ _ _ _ _) (bias_row _ _ _)

set_option maxHeartbeats 4000000 in
/-- Layer 2 of the reference, from the contents after layer 1. -/
theorem rstep2 (d : Dev nD) :
    R4 m d (Proc.devRef .tc main_v87)
      = Cert.Sage.layer
          (Cert.KernelIdeal.Terms.aggT (F := Ideal)
            (Cert.KernelIdeal.Terms.gatherT (F := Ideal) (R3 m d (Proc.devRef .tc main_v62)) (R3 m d (Proc.devRef .tc main_v1)))
            (R3 m d (Proc.devRef .tc main_v3)))
          (R3 m d (Proc.devRef .tc main_v62)) (R3 m d (Proc.devRef .tc main_v12))
          (Cert.KernelIdeal.Terms.matT2 (F := Ideal) (R3 m d (Proc.devRef .tc main_arg2)))
          (Cert.KernelIdeal.Terms.matT2 (F := Ideal) (R3 m d (Proc.devRef .tc main_arg3)))
          (Cert.KernelIdeal.Terms.biasT2 (F := Ideal) (R3 m d (Proc.devRef .tc main_arg4))) := by
  show after opsLayer2 (R3 m d) (Proc.devRef .tc main_v87) = _
  generalize R3 m d = E
  after_results_simp
  simp only [TRef.ofBuf, TRef.toBuf, cast_eq]
  refine (layer_law _ _ _ _ _ _).trans ?_
  exact congrArg (Cert.Sage.layer _ _ _ _ _) (bias_row _ _ _)

set_option maxHeartbeats 4000000 in
/-- Layer 3 of the reference, from the contents after layer 2. -/
theorem rstep3 (d : Dev nD) :
    R5 m d (Proc.devRef .tc main_v112)
      = Cert.Sage.layer
          (Cert.KernelIdeal.Terms.aggT (F := Ideal)
            (Cert.KernelIdeal.Terms.gatherT (F := Ideal) (R4 m d (Proc.devRef .tc main_v87)) (R4 m d (Proc.devRef .tc main_v1)))
            (R4 m d (Proc.devRef .tc main_v3)))
          (R4 m d (Proc.devRef .tc main_v87)) (R4 m d (Proc.devRef .tc main_v12))
          (Cert.KernelIdeal.Terms.matT3 (F := Ideal) (R4 m d (Proc.devRef .tc main_arg2)))
          (Cert.KernelIdeal.Terms.matT3 (F := Ideal) (R4 m d (Proc.devRef .tc main_arg3)))
          (Cert.KernelIdeal.Terms.biasT3 (F := Ideal) (R4 m d (Proc.devRef .tc main_arg4))) := by
  show after opsLayer3 (R4 m d) (Proc.devRef .tc main_v112) = _
  generalize R4 m d = E
  after_results_simp
  simp only [TRef.ofBuf, TRef.toBuf, cast_eq]
  refine (layer_law _ _ _ _ _ _).trans ?_
  exact congrArg (Cert.Sage.layer _ _ _ _ _) (bias_row _ _ _)

set_option maxHeartbeats 4000000 in
/-- Layer 4 of the reference, from the contents after layer 3. -/
theorem rstep4 (d : Dev nD) :
    R6 m d (Proc.devRef .tc main_v137)
      = Cert.Sage.layer
          (Cert.KernelIdeal.Terms.aggT (F := Ideal)
            (Cert.KernelIdeal.Terms.gatherT (F := Ideal) (R5 m d (Proc.devRef .tc main_v112)) (R5 m d (Proc.devRef .tc main_v1)))
            (R5 m d (Proc.devRef .tc main_v3)))
          (R5 m d (Proc.devRef .tc main_v112)) (R5 m d (Proc.devRef .tc main_v12))
          (Cert.KernelIdeal.Terms.matT4 (F := Ideal) (R5 m d (Proc.devRef .tc main_arg2)))
          (Cert.KernelIdeal.Terms.matT4 (F := Ideal) (R5 m d (Proc.devRef .tc main_arg3)))
          (Cert.KernelIdeal.Terms.biasT4 (F := Ideal) (R5 m d (Proc.devRef .tc main_arg4))) := by
  show after opsLayer4 (R5 m d) (Proc.devRef .tc main_v137) = _
  generalize R5 m d = E
  after_results_simp
  simp only [TRef.ofBuf, TRef.toBuf, cast_eq]
  refine (layer_law _ _ _ _ _ _).trans ?_
  exact congrArg (Cert.Sage.layer _ _ _ _ _) (bias_row _ _ _)

set_option maxHeartbeats 4000000 in
/-- The last layer and the head of the reference, from the contents after layer 4. -/
theorem rstep5 (d : Dev nD) :
    R8 m d (Proc.devRef .tc main_v166)
      = Cert.Sage.head
          (Cert.KernelIdeal.Terms.aggT (F := Ideal)
            (Cert.KernelIdeal.Terms.gatherT (F := Ideal) (R6 m d (Proc.devRef .tc main_v137)) (R6 m d (Proc.devRef .tc main_v1)))
            (R6 m d (Proc.devRef .tc main_v3)))
          (R6 m d (Proc.devRef .tc main_v137)) (R6 m d (Proc.devRef .tc main_v12))
          (Cert.KernelIdeal.Terms.matT5 (F := Ideal) (R6 m d (Proc.devRef .tc main_arg2)))
          (Cert.KernelIdeal.Terms.matT5 (F := Ideal) (R6 m d (Proc.devRef .tc main_arg3)))
          (Cert.KernelIdeal.Terms.biasT5 (F := Ideal) (R6 m d (Proc.devRef .tc main_arg4)))
          (R6 m d (Proc.devRef .tc main_arg5)) (Cert.KernelIdeal.Terms.headBiasT (F := Ideal) (R6 m d (Proc.devRef .tc main_arg6))) := by
  show after opsHead (after opsLayer5 (R6 m d)) (Proc.devRef .tc main_v166) = _
  generalize R6 m d = E
  after_results_simp
  simp only [TRef.ofBuf, TRef.toBuf, cast_eq]
  rw [layer_law]
  refine (head_of_layer _ _ _ _ _ _ _ _).trans ?_
  rw [bias_row _ Cert.KernelIdeal.Facts₀.shapeCasts_S128_S1x128, head_bias_row _ Cert.KernelIdeal.Facts₀.shapeCasts_S2_S1x2]
  rfl

end Steps

end Cert.ReferenceIdeal.Chain

end
-- ==== Proof.RefValue.lean ====
/-
  The reference's result is the network of its argument arrays, with the plain row lookup: its six layers read one
  after the other, each finding the edge list's rows, the degrees and the parameters as the first stretch left them.
  With it, the reference's run: every weakly fair execution terminates, the result buffer ends at that network and the
  arguments as launched.
-/
import proofs.«407880_j40888088658252_2_alg».proof.Proof.RefSteps
import proofs.«407880_j40888088658252_2_alg».proof.Proof.Network

set_option maxRecDepth 16384

noncomputable section

namespace Cert.ReferenceIdeal.Chain

open Cert.ReferenceIdeal Cert.ReferenceIdeal.Gen Cert.ReferenceIdeal.Ops Idealize.ShloMosaic Idealize.ShloMosaic.TcCoe Idealize.SL.Sem Idealize.ShloMosaic.StableHlo
open Cert.KernelIdeal.Chain (logits hid1 hid2 hid3 hid4 hid5 lookPlain)

/-- Every weakly fair execution of the reference terminates, each buffer ending at the fold of the operations over the
    launch contents. -/
theorem run_after {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

variable (m : (ℓ : Loc nD τ sig) → Buf (Elt Ideal) ℓ)

/-- The result buffer at the end of the reference's program is the network of the argument arrays, with the plain
    lookup. -/
theorem result_eq (d : Dev nD) :
    R8 m d (Proc.devRef .tc main_v166)
      = logits (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) := by
  have k1 := kept_R1 m d
  have k2 := kept_R2 m d
  have k3 := kept_R3 m d
  have k4 := kept_R4 m d
  have k5 := kept_R5 m d
  have k6 := kept_R6 m d
  have h1 : R2 m d (Proc.devRef .tc main_v37) = hid1 (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [rstep0 m d, k1.src, k1.dst, k1.dinv, k1.x, k1.wl, k1.wr, k1.bl]; rfl
  have h2 : R3 m d (Proc.devRef .tc main_v62) = hid2 (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [rstep1 m d, k2.src, k2.dst, k2.dinv, k2.wl, k2.wr, k2.bl, h1]; rfl
  have h3 : R4 m d (Proc.devRef .tc main_v87) = hid3 (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [rstep2 m d, k3.src, k3.dst, k3.dinv, k3.wl, k3.wr, k3.bl, h2]; rfl
  have h4 : R5 m d (Proc.devRef .tc main_v112) = hid4 (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [rstep3 m d, k4.src, k4.dst, k4.dinv, k4.wl, k4.wr, k4.bl, h3]; rfl
  have h5 : R6 m d (Proc.devRef .tc main_v137) = hid5 (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    rw [rstep4 m d, k5.src, k5.dst, k5.dinv, k5.wl, k5.wr, k5.bl, h4]; rfl
  rw [rstep5 m d, k6.src, k6.dst, k6.dinv, k6.wl, k6.wr, k6.bl, k6.fw, k6.fb, h5]; rfl

/-- The reference's run, read: the result at the network of the launch arguments, the arguments unchanged. -/
theorem run_value (ρ : Dev nD → PrngReg) :
    θ_run defs (onTc (τ := τ) (main (F := Ideal))) ⟨m, fun _ => 0, ρ⟩ fun r => ∀ d : Dev nD,
      r.2.mem ((d.tc : Thread nD τ).loc main_v166)
          = logits (lookPlain (m ((d.tc : Thread nD τ).loc main_arg1))) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6) := by
  refine (θ_run defs _ _).mono (fun r h d => ?_) (run_after m ρ)
  obtain ⟨e0, e1, e2, e3, e4, e5, e6⟩ := args_end m d
  have hR : ∀ b : Ref sig .tc, r.2.mem ((d.tc : Thread nD τ).loc b) = R8 m d (Proc.devRef .tc b) :=
    fun b => (h d b).trans (congrFun (after_ops m d) _)
  exact ⟨(hR main_v166).trans (result_eq m d), (hR main_arg0).trans e0, (hR main_arg1).trans e1, (hR main_arg2).trans e2,
    (hR main_arg3).trans e3, (hR main_arg4).trans e4, (hR main_arg5).trans e5, (hR main_arg6).trans e6⟩

end Cert.ReferenceIdeal.Chain

end
-- ==== Proof.lean ====
/-
  The certificate of a six-layer graph convolution with mean aggregation and a linear head: a kernel that does each
  layer's dense part in one tiled call (row tiles of 5000 nodes; the last call also applies the head) and leaves the
  row lookup and the neighbour sum to host operations, against a reference that does everything on whole arrays.

  Over the extended reals both programs compute, layer after layer,

      h ↦ max ( ((Σ_{e : dst e = r} h[src e]) · 1/max(deg r, 1)) · Wl + h · Wr + b ) 0 ,

  and then `h · fc_W + fc_b`. The kernel's row tiles are restrictions of the whole-array layer (a row of the output
  depends on one row of the neighbour sum, of `h` and of the degrees), so the tiles written back one by one assemble
  the reference's array; no law that needs finiteness is used.
  The two programs differ in the row lookup alone: the kernel's host code fills a row whose (wrapped) source index is
  outside [0, 49999] with a fixed pattern, the reference's lookup reads a clamped row there. The precondition says
  every source index is at least −50000 and below 50000; then every wrapped index is inside the array, no row is
  filled, and the two lookups are one function.
  Frames: the two kernel programs by their generated frame certificates; the reference by its run.
-/
import proofs.«407880_j40888088658252_2_alg».proof.Defs
import proofs.«407880_j40888088658252_2_alg».proof.Proof.Gen.Kernel
import proofs.«407880_j40888088658252_2_alg».proof.Proof.Gen.Kernel.Frame
import proofs.«407880_j40888088658252_2_alg».proof.Proof.Gen.KernelIdeal
import proofs.«407880_j40888088658252_2_alg».proof.Proof.Gen.KernelIdeal.Frame
import proofs.«407880_j40888088658252_2_alg».proof.Proof.Gen.ReferenceIdeal
import proofs.«407880_j40888088658252_2_alg».proof.Proof.Gen.Pre_finite_inputs
import proofs.«407880_j40888088658252_2_alg».proof.Proof.KernelValue
import proofs.«407880_j40888088658252_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Chain.run_value m ρ)

/-- From memories that agree on the arguments, under the precondition, both programs end with the network of the
    arguments in their result arrays: the kernel's with the filling lookup, which on the admitted source indices is the
    plain lookup the reference's network is stated with. -/
theorem algebraic : Cert.algebraic_KernelIdeal_ReferenceIdeal := by
  intro m ρ m' ρ' hpre hagree
  refine ⟨fun c => Cert.KernelIdeal.Chain.logits (Cert.KernelIdeal.Chain.lookPlain (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Gen.run_named m ρ)
    obtain ⟨hres, hargs⟩ := h c
    refine ⟨hres.trans ((Cert.KernelIdeal.Chain.result_eq m ρ c).trans ?_), hargs⟩
    exact Cert.KernelIdeal.Chain.logits_fill_eq_plain _ _ _ _ _ _ _
      (fun i => Cert.KernelIdeal.Terms.srcOk_of_pre _ _ _ _ _ _ _ (hpre c) i)
  · refine (θ_run Cert.ReferenceIdeal.defs _ _).mono (fun r h c => ?_) (Cert.ReferenceIdeal.Chain.run_value m' ρ')
    obtain ⟨hres, hargs⟩ := h c
    refine ⟨hres.trans ?_, hargs⟩
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
